-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x2 : Shape := ⟨2, ![1000000, 2]⟩
abbrev S2x16000000 : Shape := ⟨2, ![2, 16000000]⟩
abbrev S2x4 : Shape := ⟨2, ![2, 4]⟩
abbrev S4 : Shape := ⟨1, ![4]⟩
abbrev S4x2 : Shape := ⟨2, ![4, 2]⟩
abbrev S2 : Shape := ⟨1, ![2]⟩
abbrev S_ : Shape := ⟨0, ![]⟩

class Facts : Prop where
  bcast_S_S1000000x2 : S_.BroadcastsInDim S1000000x2 (![] : Fin 0 → Fin S1000000x2.rank)
  reducesTo_S1000000x2_S_d0_1 : S1000000x2.ReducesTo [0, 1] S_
  h_S_ : 0 < S_.numel
  bcast_S_S2x4 : S_.BroadcastsInDim S2x4 (![] : Fin 0 → Fin S2x4.rank)
  reducesTo_S2x4_S_d0_1 : S2x4.ReducesTo [0, 1] S_
  bcast_S_S4 : S_.BroadcastsInDim S4 (![] : Fin 0 → Fin S4.rank)
  reducesTo_S4_S_d0 : S4.ReducesTo [0] S_
  bcast_S_S4x2 : S_.BroadcastsInDim S4x2 (![] : Fin 0 → Fin S4x2.rank)
  reducesTo_S4x2_S_d0_1 : S4x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2 .f32) (main_v13 : IVec S_ 1) (main_v16 : IVec S4x2 1) : IVec S_ 1 :=
  let main_c_5 : IVec S_ 1 := constantI S_ 1 1#1
  let main_v17 : IVec S_ 1 := (fun x v => Host.reduce IntOp.andi x v reducesTo_S4x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S1000000x2 .f32) (main_arg1 : IVec S2x16000000 32) (main_arg2 : FVec F S2x4 .f32) (main_arg3 : FVec F S4 .f32) (main_arg4 : FVec F S4x2 .f32) (main_arg5 : FVec F S2 .f32) : IVec S_ 1 :=
  let main_v0 : FVec F S1000000x2 .f32 := Host.absf main_arg0
  let main_cst : FVec F S_ .f32 := constant S_ .f32 0x7F800000#32
  let main_v1 : FVec F S1000000x2 .f32 := broadcastInDim S1000000x2 ![] bcast_S_S1000000x2 main_cst
  let main_v2 : IVec S1000000x2 1 := cmpf .olt main_v0 main_v1
  let main_c : IVec S_ 1 := constantI S_ 1 1#1
  let main_v3 : IVec S_ 1 := (fun x v => Host.reduce IntOp.andi x v reducesTo_S1000000x2_S_d0_1 h_S_) main_v2 main_c
  let main_v4 : FVec F S2x4 .f32 := Host.absf main_arg2
  let main_cst_0 : FVec F S_ .f32 := constant S_ .f32 0x7F800000#32
  let main_v5 : FVec F S2x4 .f32 := broadcastInDim S2x4 ![] bcast_S_S2x4 main_cst_0
  let main_v6 : IVec S2x4 1 := cmpf .olt main_v4 main_v5
  let main_c_1 : IVec S_ 1 := constantI S_ 1 1#1
  let main_v7 : IVec S_ 1 := (fun x v => Host.reduce IntOp.andi x v reducesTo_S2x4_S_d0_1 h_S_) main_v6 main_c_1
  let main_v8 : IVec S_ 1 := andi main_v3 main_v7
  let main_v9 : FVec F S4 .f32 := Host.absf main_arg3
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  let main_v14 : FVec F S4x2 .f32 := Host.absf main_arg4
  let main_cst_4 : FVec F S_ .f32 := constant S_ .f32 0x7F800000#32
  let main_v15 : FVec F S4x2 .f32 := broadcastInDim S4x2 ![] bcast_S_S4x2 main_cst_4
  let main_v16 : IVec S4x2 1 := cmpf .olt main_v14 main_v15
  fn_part1 (F := F) main_arg5 main_v13 main_v16
-- ==== Kernel.lean ====
abbrev S1000000x2 : Shape := ⟨2, ![1000000, 2]⟩
abbrev S2x16000000 : Shape := ⟨2, ![2, 16000000]⟩
abbrev S2x4 : Shape := ⟨2, ![2, 4]⟩
abbrev S4 : Shape := ⟨1, ![4]⟩
abbrev S4x2 : Shape := ⟨2, ![4, 2]⟩
abbrev S2 : Shape := ⟨1, ![2]⟩
abbrev S1000000 : Shape := ⟨1, ![1000000]⟩
abbrev S1x16000000 : Shape := ⟨2, ![1, 16000000]⟩
abbrev S16000000 : Shape := ⟨1, ![16000000]⟩
abbrev S17000000 : Shape := ⟨1, ![17000000]⟩
abbrev S_ : Shape := ⟨0, ![]⟩
abbrev S17000000x1 : Shape := ⟨2, ![17000000, 1]⟩
abbrev S1000000x4 : Shape := ⟨2, ![1000000, 4]⟩
abbrev S10000x2 : Shape := ⟨2, ![10000, 2]⟩
abbrev S10000x4 : Shape := ⟨2, ![10000, 4]⟩
abbrev S17000000x4 : Shape := ⟨2, ![17000000, 4]⟩
abbrev S1x4 : Shape := ⟨2, ![1, 4]⟩
abbrev S17000000x2 : Shape := ⟨2, ![17000000, 2]⟩
abbrev S1x2 : Shape := ⟨2, ![1, 2]⟩

abbrev nBuf : Space → Nat
  | .hbm => 83
  | .vmem => 16
  | .smem => 0
  | _ => 0

abbrev bufTy : (tb : Table) → Fin (tcTables nBuf tb) → BufTy
  | .hbm, ⟨0, _⟩ => ⟨S1000000x2, .f32⟩
  | .hbm, ⟨1, _⟩ => ⟨S2x16000000, .i32⟩
  | .hbm, ⟨2, _⟩ => ⟨S2x4, .f32⟩
  | .hbm, ⟨3, _⟩ => ⟨S4, .f32⟩
  | .hbm, ⟨4, _⟩ => ⟨S4x2, .f32⟩
  | .hbm, ⟨5, _⟩ => ⟨S2, .f32⟩
  | .hbm, ⟨6, _⟩ => ⟨S1000000, .i32⟩
  | .hbm, ⟨7, _⟩ => ⟨S1x16000000, .i32⟩
  | .hbm, ⟨8, _⟩ => ⟨S16000000, .i32⟩
  | .hbm, ⟨9, _⟩ => ⟨S17000000, .i32⟩
  | .hbm, ⟨10, _⟩ => ⟨S1x16000000, .i32⟩
  | .hbm, ⟨11, _⟩ => ⟨S16000000, .i32⟩
  | .hbm, ⟨12, _⟩ => ⟨S17000000, .i32⟩
  | .hbm, ⟨13, _⟩ => ⟨S_, .f32⟩
  | .hbm, ⟨14, _⟩ => ⟨S17000000, .f32⟩
  | .hbm, ⟨15, _⟩ => ⟨S_, .f32⟩
  | .hbm, ⟨16, _⟩ => ⟨S1000000, .f32⟩
  | .hbm, ⟨17, _⟩ => ⟨S17000000x1, .i32⟩
  | .hbm, ⟨18, _⟩ => ⟨S1000000, .f32⟩
  | .hbm, ⟨19, _⟩ => ⟨S_, .f32⟩
  | .hbm, ⟨20, _⟩ => ⟨S1000000, .f32⟩
  | .hbm, ⟨21, _⟩ => ⟨S1000000, .i1⟩
  | .hbm, ⟨22, _⟩ => ⟨S1000000, .f32⟩
  | .hbm, ⟨23, _⟩ => ⟨S_, .f32⟩
  | .hbm, ⟨24, _⟩ => ⟨S_, .f32⟩
  | .hbm, ⟨25, _⟩ => ⟨S1000000, .f32⟩
  | .hbm, ⟨26, _⟩ => ⟨S1000000, .f32⟩
  | .hbm, ⟨27, _⟩ => ⟨S_, .i32⟩
  | .hbm, ⟨28, _⟩ => ⟨S17000000, .i32⟩
  | .hbm, ⟨29, _⟩ => ⟨S17000000, .i1⟩
  | .hbm, ⟨30, _⟩ => ⟨S_, .i32⟩
  | .hbm, ⟨31, _⟩ => ⟨S17000000, .i32⟩
  | .hbm, ⟨32, _⟩ => ⟨S17000000, .i32⟩
  | .hbm, ⟨33, _⟩ => ⟨S17000000, .i32⟩
  | .hbm, ⟨34, _⟩ => ⟨S17000000x1, .i32⟩
  | .hbm, ⟨35, _⟩ => ⟨S17000000, .f32⟩
  | .hbm, ⟨36, _⟩ => ⟨S_, .i32⟩
  | .hbm, ⟨37, _⟩ => ⟨S17000000, .i32⟩
  | .hbm, ⟨38, _⟩ => ⟨S17000000, .i1⟩
  | .hbm, ⟨39, _⟩ => ⟨S_, .i32⟩
  | .hbm, ⟨40, _⟩ => ⟨S17000000, .i32⟩
  | .hbm, ⟨41, _⟩ => ⟨S17000000, .i32⟩
  | .hbm, ⟨42, _⟩ => ⟨S17000000, .i32⟩
  | .hbm, ⟨43, _⟩ => ⟨S17000000x1, .i32⟩
  | .hbm, ⟨44, _⟩ => ⟨S17000000, .f32⟩
  | .hbm, ⟨45, _⟩ => ⟨S17000000, .f32⟩
  | .hbm, ⟨46, _⟩ => ⟨S1000000x4, .f32⟩
  | .hbm, ⟨47, _⟩ => ⟨S_, .i32⟩
  | .hbm, ⟨48, _⟩ => ⟨S17000000, .i32⟩
  | .hbm, ⟨49, _⟩ => ⟨S17000000, .i1⟩
  | .hbm, ⟨50, _⟩ => ⟨S_, .i32⟩
  | .hbm, ⟨51, _⟩ => ⟨S17000000, .i32⟩
  | .hbm, ⟨52, _⟩ => ⟨S17000000, .i32⟩
  | .hbm, ⟨53, _⟩ => ⟨S17000000, .i32⟩
  | .hbm, ⟨54, _⟩ => ⟨S17000000x1, .i32⟩
  | .hbm, ⟨55, _⟩ => ⟨S17000000x4, .f32⟩
  | .hbm, ⟨56, _⟩ => ⟨S17000000x1, .f32⟩
  | .hbm, ⟨57, _⟩ => ⟨S17000000x4, .f32⟩
  | .hbm, ⟨58, _⟩ => ⟨S17000000x4, .f32⟩
  | .hbm, ⟨59, _⟩ => ⟨S_, .f32⟩
  | .hbm, ⟨60, _⟩ => ⟨S1000000x4, .f32⟩
  | .hbm, ⟨61, _⟩ => ⟨S17000000x1, .i32⟩
  | .hbm, ⟨62, _⟩ => ⟨S1000000x4, .f32⟩
  | .hbm, ⟨63, _⟩ => ⟨S1x4, .f32⟩
  | .hbm, ⟨64, _⟩ => ⟨S1000000x2, .f32⟩
  | .hbm, ⟨65, _⟩ => ⟨S_, .i32⟩
  | .hbm, ⟨66, _⟩ => ⟨S17000000, .i32⟩
  | .hbm, ⟨67, _⟩ => ⟨S17000000, .i1⟩
  | .hbm, ⟨68, _⟩ => ⟨S_, .i32⟩
  | .hbm, ⟨69, _⟩ => ⟨S17000000, .i32⟩
  | .hbm, ⟨70, _⟩ => ⟨S17000000, .i32⟩
  | .hbm, ⟨71, _⟩ => ⟨S17000000, .i32⟩
  | .hbm, ⟨72, _⟩ => ⟨S17000000x1, .i32⟩
  | .hbm, ⟨73, _⟩ => ⟨S17000000x2, .f32⟩
  | .hbm, ⟨74, _⟩ => ⟨S17000000x1, .f32⟩
  | .hbm, ⟨75, _⟩ => ⟨S17000000x2, .f32⟩
  | .hbm, ⟨76, _⟩ => ⟨S17000000x2, .f32⟩
  | .hbm, ⟨77, _⟩ => ⟨S_, .f32⟩
  | .hbm, ⟨78, _⟩ => ⟨S1000000x2, .f32⟩
  | .hbm, ⟨79, _⟩ => ⟨S17000000x1, .i32⟩
  | .hbm, ⟨80, _⟩ => ⟨S1000000x2, .f32⟩
  | .hbm, ⟨81, _⟩ => ⟨S1x2, .f32⟩
  | .hbm, ⟨82, _⟩ => ⟨S1000000x2, .f32⟩
  | .local _ .vmem, ⟨0, _⟩ => ⟨S10000x2, .f32⟩
  | .local _ .vmem, ⟨1, _⟩ => ⟨S10000x2, .f32⟩
  | .local _ .vmem, ⟨2, _⟩ => ⟨S2x4, .f32⟩
  | .local _ .vmem, ⟨3, _⟩ => ⟨S10000x4, .f32⟩
  | .local _ .vmem, ⟨4, _⟩ => ⟨S10000x4, .f32⟩
  | .local _ .vmem, ⟨5, _⟩ => ⟨S10000x4, .f32⟩
  | .local _ .vmem, ⟨6, _⟩ => ⟨S10000x4, .f32⟩
  | .local _ .vmem, ⟨7, _⟩ => ⟨S1x4, .f32⟩
  | .local _ .vmem, ⟨8, _⟩ => ⟨S4x2, .f32⟩
  | .local _ .vmem, ⟨9, _⟩ => ⟨S10000x2, .f32⟩
  | .local _ .vmem, ⟨10, _⟩ => ⟨S10000x2, .f32⟩
  | .local _ .vmem, ⟨11, _⟩ => ⟨S10000x2, .f32⟩
  | .local _ .vmem, ⟨12, _⟩ => ⟨S10000x2, .f32⟩
  | .local _ .vmem, ⟨13, _⟩ => ⟨S1x2, .f32⟩
  | .local _ .vmem, ⟨14, _⟩ => ⟨S10000x2, .f32⟩
  | .local _ .vmem, ⟨15, _⟩ => ⟨S10000x2, .f32⟩
  | _, _ => ⟨S1000000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x4 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x4 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4x2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x2 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x2 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x2 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x16000000_S1x16000000_0_0 : S2x16000000.Slices ![0, 0] S1x16000000
  shapeCasts_S1x16000000_S16000000 : S1x16000000.ShapeCasts S16000000
  concatenates_S16000000_S1000000_S17000000_d0 : Shape.Concatenates [S16000000, S1000000] S17000000 0
  slices_S2x16000000_S1x16000000_1_0 : S2x16000000.Slices ![1, 0] S1x16000000
  bcast_S_S17000000 : S_.BroadcastsInDim S17000000 (![] : Fin 0 → Fin S17000000.rank)
  bcast_S_S1000000 : S_.BroadcastsInDim S1000000 (![] : Fin 0 → Fin S1000000.rank)
  bcast_S17000000_S17000000x1_0 : S17000000.BroadcastsInDim S17000000x1 (![0] : Fin 1 → Fin S17000000x1.rank)
  inb_S10000x2_S10000x2_0_0 : ∀ a, (![0, 0] : Fin 2 → Nat) a + S10000x2.size a ≤ S10000x2.size a
  h_S10000x2 : 0 < S10000x2.numel
  bitsLt_bf16_f32 : FTy.bits .bf16 < FTy.bits .f32
  inb_S2x4_S2x4_0_0 : ∀ a, (![0, 0] : Fin 2 → Nat) a + S2x4.size a ≤ S2x4.size a
  h_S2x4 : 0 < S2x4.numel
  inb_S10000x4_S10000x4_0_0 : ∀ a, (![0, 0] : Fin 2 → Nat) a + S10000x4.size a ≤ S10000x4.size a
  h_S10000x4 : 0 < S10000x4.numel
  bcast_S17000000x1_S17000000x4_0_1 : S17000000x1.BroadcastsInDim S17000000x4 (![0, 1] : Fin 2 → Fin S17000000x4.rank)
  bcast_S_S1000000x4 : S_.BroadcastsInDim S1000000x4 (![] : Fin 0 → Fin S1000000x4.rank)
  shapeCasts_S4_S1x4 : S4.ShapeCasts S1x4
  shapeCasts_S10000x4_S10000x4 : S10000x4.ShapeCasts S10000x4
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S10000x4 : S1x4.Broadcasts S10000x4
  inb_S4x2_S4x2_0_0 : ∀ a, (![0, 0] : Fin 2 → Nat) a + S4x2.size a ≤ S4x2.size a
  h_S4x2 : 0 < S4x2.numel
  bcast_S17000000x1_S17000000x2_0_1 : S17000000x1.BroadcastsInDim S17000000x2 (![0, 1] : Fin 2 → Fin S17000000x2.rank)
  bcast_S_S1000000x2 : S_.BroadcastsInDim S1000000x2 (![] : Fin 0 → Fin S1000000x2.rank)
  shapeCasts_S2_S1x2 : S2.ShapeCasts S1x2
  shapeCasts_S10000x2_S10000x2 : S10000x2.ShapeCasts S10000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S10000x2 : S1x2.Broadcasts S10000x2
  scatter_S1000000_S17000000x1_S17000000_n_0_0_1_wf : ScatterDims.WF S1000000 S17000000x1 S17000000 [] [0] [0] 1
  gather_S1000000_S17000000x1_S17000000_n_0_n_n_0_1_1_wf : GatherDims.WF S1000000 S17000000x1 S17000000 [] [0] [] [0] [] 1 ![1]
  dot_S10000x2_S2x4_S10000x4_1_0_0_1_n_n_wf : DotDims.WF S10000x2 S2x4 S10000x4 [1] [0] [0] [1] [] []
  gather_S1000000x4_S17000000x1_S17000000x4_1_0_n_n_0_1_14_wf : GatherDims.WF S1000000x4 S17000000x1 S17000000x4 [1] [0] [] [0] [] 1 ![1, 4]
  scatter_S1000000x4_S17000000x1_S17000000x4_1_0_0_1_wf : ScatterDims.WF S1000000x4 S17000000x1 S17000000x4 [1] [0] [0] 1
  dot_S10000x4_S4x2_S10000x2_1_0_0_1_n_n_wf : DotDims.WF S10000x4 S4x2 S10000x2 [1] [0] [0] [1] [] []
  gather_S1000000x2_S17000000x1_S17000000x2_1_0_n_n_0_1_12_wf : GatherDims.WF S1000000x2 S17000000x1 S17000000x2 [1] [0] [] [0] [] 1 ![1, 2]
  scatter_S1000000x2_S17000000x1_S17000000x2_1_0_0_1_wf : ScatterDims.WF S1000000x2 S17000000x1 S17000000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x2.size a ≤ S1000000x2.size a
  hwx0_0 : ∀ i : grid0.Coords, EltTy.bits .f32 = 32 ∨ (Rect.block (s := S1000000x2) S10000x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x4.size a ≤ S2x4.size a
  hwx0_1 : ∀ i : grid0.Coords, EltTy.bits .f32 = 32 ∨ (Rect.block (s := S2x4) S2x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x4.size a ≤ S1000000x4.size a
  hwx0_2 : ∀ i : grid0.Coords, EltTy.bits .f32 = 32 ∨ (Rect.block (s := S1000000x4) S10000x4.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x4.size a ≤ S1000000x4.size a
  hwx1_0 : ∀ i : grid1.Coords, EltTy.bits .f32 = 32 ∨ (Rect.block (s := S1000000x4) S10000x4.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x4.size a ≤ S1x4.size a
  hwx1_1 : ∀ i : grid1.Coords, EltTy.bits .f32 = 32 ∨ (Rect.block (s := S1x4) S1x4.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4x2.size a ≤ S4x2.size a
  hwx1_2 : ∀ i : grid1.Coords, EltTy.bits .f32 = 32 ∨ (Rect.block (s := S4x2) S4x2.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x2.size a ≤ S1000000x2.size a
  hwx1_3 : ∀ i : grid1.Coords, EltTy.bits .f32 = 32 ∨ (Rect.block (s := S1000000x2) S10000x2.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x2.size a ≤ S1000000x2.size a
  hwx2_0 : ∀ i : grid2.Coords, EltTy.bits .f32 = 32 ∨ (Rect.block (s := S1000000x2) S10000x2.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x2.size a ≤ S1x2.size a
  hwx2_1 : ∀ i : grid2.Coords, EltTy.bits .f32 = 32 ∨ (Rect.block (s := S1x2) S1x2.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x2.size a ≤ S1000000x2.size a
  hwx2_2 : ∀ i : grid2.Coords, EltTy.bits .f32 = 32 ∨ (Rect.block (s := S1000000x2) S10000x2.size (cc2_transform_2 i) (hinb2_2 i)).WholeWords (EltTy.packing .f32)

variable [Facts₀]

def scatter_S1000000_S17000000x1_S17000000_n_0_0_1 : ScatterDims S1000000 S17000000x1 S17000000 where
  updateWindowDims := []
  insertedWindowDims := [0]
  scatterDimsToOperandDims := [0]
  indexVectorDim := 1
  wf := scatter_S1000000_S17000000x1_S17000000_n_0_0_1_wf
def gather_S1000000_S17000000x1_S17000000_n_0_n_n_0_1_1 : GatherDims S1000000 S17000000x1 S17000000 where
  offsetDims := []
  collapsedSliceDims := [0]
  operandBatchingDims := []
  startIndicesBatchingDims := []
  startIndexMap := [0]
  indexVectorDim := 1
  sliceSizes := ![1]
  wf := gather_S1000000_S17000000x1_S17000000_n_0_n_n_0_1_1_wf
def dot_S10000x2_S2x4_S10000x4_1_0_0_1_n_n : DotDims S10000x2 S2x4 S10000x4 where
  lhsContracting := [1]
  rhsContracting := [0]
  lhsNonContracting := [0]
  rhsNonContracting := [1]
  lhsBatch := []
  rhsBatch := []
  wf := dot_S10000x2_S2x4_S10000x4_1_0_0_1_n_n_wf
def gather_S1000000x4_S17000000x1_S17000000x4_1_0_n_n_0_1_14 : GatherDims S1000000x4 S17000000x1 S17000000x4 where
  offsetDims := [1]
  collapsedSliceDims := [0]
  operandBatchingDims := []
  startIndicesBatchingDims := []
  startIndexMap := [0]
  indexVectorDim := 1
  sliceSizes := ![1, 4]
  wf := gather_S1000000x4_S17000000x1_S17000000x4_1_0_n_n_0_1_14_wf
def scatter_S1000000x4_S17000000x1_S17000000x4_1_0_0_1 : ScatterDims S1000000x4 S17000000x1 S17000000x4 where
  updateWindowDims := [1]
  insertedWindowDims := [0]
  scatterDimsToOperandDims := [0]
  indexVectorDim := 1
  wf := scatter_S1000000x4_S17000000x1_S17000000x4_1_0_0_1_wf
def dot_S10000x4_S4x2_S10000x2_1_0_0_1_n_n : DotDims S10000x4 S4x2 S10000x2 where
  lhsContracting := [1]
  rhsContracting := [0]
  lhsNonContracting := [0]
  rhsNonContracting := [1]
  lhsBatch := []
  rhsBatch := []
  wf := dot_S10000x4_S4x2_S10000x2_1_0_0_1_n_n_wf
def gather_S1000000x2_S17000000x1_S17000000x2_1_0_n_n_0_1_12 : GatherDims S1000000x2 S17000000x1 S17000000x2 where
  offsetDims := [1]
  collapsedSliceDims := [0]
  operandBatchingDims := []
  startIndicesBatchingDims := []
  startIndexMap := [0]
  indexVectorDim := 1
  sliceSizes := ![1, 2]
  wf := gather_S1000000x2_S17000000x1_S17000000x2_1_0_n_n_0_1_12_wf
def scatter_S1000000x2_S17000000x1_S17000000x2_1_0_0_1 : ScatterDims S1000000x2 S17000000x1 S17000000x2 where
  updateWindowDims := [1]
  insertedWindowDims := [0]
  scatterDimsToOperandDims := [0]
  indexVectorDim := 1
  wf := scatter_S1000000x2_S17000000x1_S17000000x2_1_0_0_1_wf

abbrev win0_0 : Pipeline.Window sig grid0 :=
  Pipeline.Window.ofSpec (Memref.whole main_arg0) S10000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x4.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x4.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x4.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S4x2.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S10000x2.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S10000x2.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x2.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v60) S10000x2.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S1000000x2 : Shape := ⟨2, ![1000000, 2]⟩
abbrev S2x16000000 : Shape := ⟨2, ![2, 16000000]⟩
abbrev S2x4 : Shape := ⟨2, ![2, 4]⟩
abbrev S4 : Shape := ⟨1, ![4]⟩
abbrev S4x2 : Shape := ⟨2, ![4, 2]⟩
abbrev S2 : Shape := ⟨1, ![2]⟩
abbrev S1000000 : Shape := ⟨1, ![1000000]⟩
abbrev S1x16000000 : Shape := ⟨2, ![1, 16000000]⟩
abbrev S16000000 : Shape := ⟨1, ![16000000]⟩
abbrev S17000000 : Shape := ⟨1, ![17000000]⟩
abbrev S_ : Shape := ⟨0, ![]⟩
abbrev S17000000x1 : Shape := ⟨2, ![17000000, 1]⟩
abbrev S1000000x4 : Shape := ⟨2, ![1000000, 4]⟩
abbrev S17000000x4 : Shape := ⟨2, ![17000000, 4]⟩
abbrev S1x4 : Shape := ⟨2, ![1, 4]⟩
abbrev S17000000x2 : Shape := ⟨2, ![17000000, 2]⟩
abbrev S1x2 : Shape := ⟨2, ![1, 2]⟩

abbrev nBuf : Space → Nat
  | .hbm => 89
  | .vmem => 0
  | .smem => 0
  | _ => 0

abbrev bufTy : (tb : Table) → Fin (tcTables nBuf tb) → BufTy
  | .hbm, ⟨0, _⟩ => ⟨S1000000x2, .f32⟩
  | .hbm, ⟨1, _⟩ => ⟨S2x16000000, .i32⟩
  | .hbm, ⟨2, _⟩ => ⟨S2x4, .f32⟩
  | .hbm, ⟨3, _⟩ => ⟨S4, .f32⟩
  | .hbm, ⟨4, _⟩ => ⟨S4x2, .f32⟩
  | .hbm, ⟨5, _⟩ => ⟨S2, .f32⟩
  | .hbm, ⟨6, _⟩ => ⟨S1000000, .i32⟩
  | .hbm, ⟨7, _⟩ => ⟨S1x16000000, .i32⟩
  | .hbm, ⟨8, _⟩ => ⟨S16000000, .i32⟩
  | .hbm, ⟨9, _⟩ => ⟨S17000000, .i32⟩
  | .hbm, ⟨10, _⟩ => ⟨S1x16000000, .i32⟩
  | .hbm, ⟨11, _⟩ => ⟨S16000000, .i32⟩
  | .hbm, ⟨12, _⟩ => ⟨S17000000, .i32⟩
  | .hbm, ⟨13, _⟩ => ⟨S_, .f32⟩
  | .hbm, ⟨14, _⟩ => ⟨S17000000, .f32⟩
  | .hbm, ⟨15, _⟩ => ⟨S_, .f32⟩
  | .hbm, ⟨16, _⟩ => ⟨S1000000, .f32⟩
  | .hbm, ⟨17, _⟩ => ⟨S17000000x1, .i32⟩
  | .hbm, ⟨18, _⟩ => ⟨S1000000, .f32⟩
  | .hbm, ⟨19, _⟩ => ⟨S_, .f32⟩
  | .hbm, ⟨20, _⟩ => ⟨S1000000, .f32⟩
  | .hbm, ⟨21, _⟩ => ⟨S1000000, .i1⟩
  | .hbm, ⟨22, _⟩ => ⟨S1000000, .f32⟩
  | .hbm, ⟨23, _⟩ => ⟨S_, .f32⟩
  | .hbm, ⟨24, _⟩ => ⟨S_, .f32⟩
  | .hbm, ⟨25, _⟩ => ⟨S1000000, .f32⟩
  | .hbm, ⟨26, _⟩ => ⟨S1000000, .f32⟩
  | .hbm, ⟨27, _⟩ => ⟨S_, .i32⟩
  | .hbm, ⟨28, _⟩ => ⟨S17000000, .i32⟩
  | .hbm, ⟨29, _⟩ => ⟨S17000000, .i1⟩
  | .hbm, ⟨30, _⟩ => ⟨S_, .i32⟩
  | .hbm, ⟨31, _⟩ => ⟨S17000000, .i32⟩
  | .hbm, ⟨32, _⟩ => ⟨S17000000, .i32⟩
  | .hbm, ⟨33, _⟩ => ⟨S17000000, .i32⟩
  | .hbm, ⟨34, _⟩ => ⟨S17000000x1, .i32⟩
  | .hbm, ⟨35, _⟩ => ⟨S17000000, .f32⟩
  | .hbm, ⟨36, _⟩ => ⟨S_, .i32⟩
  | .hbm, ⟨37, _⟩ => ⟨S17000000, .i32⟩
  | .hbm, ⟨38, _⟩ => ⟨S17000000, .i1⟩
  | .hbm, ⟨39, _⟩ => ⟨S_, .i32⟩
  | .hbm, ⟨40, _⟩ => ⟨S17000000, .i32⟩
  | .hbm, ⟨41, _⟩ => ⟨S17000000, .i32⟩
  | .hbm, ⟨42, _⟩ => ⟨S17000000, .i32⟩
  | .hbm, ⟨43, _⟩ => ⟨S17000000x1, .i32⟩
  | .hbm, ⟨44, _⟩ => ⟨S17000000, .f32⟩
  | .hbm, ⟨45, _⟩ => ⟨S17000000, .f32⟩
  | .hbm, ⟨46, _⟩ => ⟨S1000000x4, .f32⟩
  | .hbm, ⟨47, _⟩ => ⟨S_, .i32⟩
  | .hbm, ⟨48, _⟩ => ⟨S17000000, .i32⟩
  | .hbm, ⟨49, _⟩ => ⟨S17000000, .i1⟩
  | .hbm, ⟨50, _⟩ => ⟨S_, .i32⟩
  | .hbm, ⟨51, _⟩ => ⟨S17000000, .i32⟩
  | .hbm, ⟨52, _⟩ => ⟨S17000000, .i32⟩
  | .hbm, ⟨53, _⟩ => ⟨S17000000, .i32⟩
  | .hbm, ⟨54, _⟩ => ⟨S17000000x1, .i32⟩
  | .hbm, ⟨55, _⟩ => ⟨S17000000x4, .f32⟩
  | .hbm, ⟨56, _⟩ => ⟨S17000000x1, .f32⟩
  | .hbm, ⟨57, _⟩ => ⟨S17000000x4, .f32⟩
  | .hbm, ⟨58, _⟩ => ⟨S17000000x4, .f32⟩
  | .hbm, ⟨59, _⟩ => ⟨S_, .f32⟩
  | .hbm, ⟨60, _⟩ => ⟨S1000000x4, .f32⟩
  | .hbm, ⟨61, _⟩ => ⟨S17000000x1, .i32⟩
  | .hbm, ⟨62, _⟩ => ⟨S1000000x4, .f32⟩
  | .hbm, ⟨63, _⟩ => ⟨S1x4, .f32⟩
  | .hbm, ⟨64, _⟩ => ⟨S1000000x4, .f32⟩
  | .hbm, ⟨65, _⟩ => ⟨S1000000x4, .f32⟩
  | .hbm, ⟨66, _⟩ => ⟨S_, .f32⟩
  | .hbm, ⟨67, _⟩ => ⟨S1000000x4, .f32⟩
  | .hbm, ⟨68, _⟩ => ⟨S1000000x4, .f32⟩
  | .hbm, ⟨69, _⟩ => ⟨S1000000x2, .f32⟩
  | .hbm, ⟨70, _⟩ => ⟨S_, .i32⟩
  | .hbm, ⟨71, _⟩ => ⟨S17000000, .i32⟩
  | .hbm, ⟨72, _⟩ => ⟨S17000000, .i1⟩
  | .hbm, ⟨73, _⟩ => ⟨S_, .i32⟩
  | .hbm, ⟨74, _⟩ => ⟨S17000000, .i32⟩
  | .hbm, ⟨75, _⟩ => ⟨S17000000, .i32⟩
  | .hbm, ⟨76, _⟩ => ⟨S17000000, .i32⟩
  | .hbm, ⟨77, _⟩ => ⟨S17000000x1, .i32⟩
  | .hbm, ⟨78, _⟩ => ⟨S17000000x2, .f32⟩
  | .hbm, ⟨79, _⟩ => ⟨S17000000x1, .f32⟩
  | .hbm, ⟨80, _⟩ => ⟨S17000000x2, .f32⟩
  | .hbm, ⟨81, _⟩ => ⟨S17000000x2, .f32⟩
  | .hbm, ⟨82, _⟩ => ⟨S_, .f32⟩
  | .hbm, ⟨83, _⟩ => ⟨S1000000x2, .f32⟩
  | .hbm, ⟨84, _⟩ => ⟨S17000000x1, .i32⟩
  | .hbm, ⟨85, _⟩ => ⟨S1000000x2, .f32⟩
  | .hbm, ⟨86, _⟩ => ⟨S1x2, .f32⟩
  | .hbm, ⟨87, _⟩ => ⟨S1000000x2, .f32⟩
  | .hbm, ⟨88, _⟩ => ⟨S1000000x2, .f32⟩
  | _, _ => ⟨S1000000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x16000000_S1x16000000_0_0 : S2x16000000.Slices ![0, 0] S1x16000000
  shapeCasts_S1x16000000_S16000000 : S1x16000000.ShapeCasts S16000000
  concatenates_S16000000_S1000000_S17000000_d0 : Shape.Concatenates [S16000000, S1000000] S17000000 0
  slices_S2x16000000_S1x16000000_1_0 : S2x16000000.Slices ![1, 0] S1x16000000
  bcast_S_S17000000 : S_.BroadcastsInDim S17000000 (![] : Fin 0 → Fin S17000000.rank)
  bcast_S_S1000000 : S_.BroadcastsInDim S1000000 (![] : Fin 0 → Fin S1000000.rank)
  bcast_S17000000_S17000000x1_0 : S17000000.BroadcastsInDim S17000000x1 (![0] : Fin 1 → Fin S17000000x1.rank)
  bcast_S17000000x1_S17000000x4_0_1 : S17000000x1.BroadcastsInDim S17000000x4 (![0, 1] : Fin 2 → Fin S17000000x4.rank)
  bcast_S_S1000000x4 : S_.BroadcastsInDim S1000000x4 (![] : Fin 0 → Fin S1000000x4.rank)
  bcast_S4_S1x4_1 : S4.BroadcastsInDim S1x4 (![1] : Fin 1 → Fin S1x4.rank)
  bcast_S1x4_S1000000x4_0_1 : S1x4.BroadcastsInDim S1000000x4 (![0, 1] : Fin 2 → Fin S1000000x4.rank)
  bcast_S17000000x1_S17000000x2_0_1 : S17000000x1.BroadcastsInDim S17000000x2 (![0, 1] : Fin 2 → Fin S17000000x2.rank)
  bcast_S_S1000000x2 : S_.BroadcastsInDim S1000000x2 (![] : Fin 0 → Fin S1000000x2.rank)
  bcast_S2_S1x2_1 : S2.BroadcastsInDim S1x2 (![1] : Fin 1 → Fin S1x2.rank)
  bcast_S1x2_S1000000x2_0_1 : S1x2.BroadcastsInDim S1000000x2 (![0, 1] : Fin 2 → Fin S1000000x2.rank)
  scatter_S1000000_S17000000x1_S17000000_n_0_0_1_wf : ScatterDims.WF S1000000 S17000000x1 S17000000 [] [0] [0] 1
  gather_S1000000_S17000000x1_S17000000_n_0_n_n_0_1_1_wf : GatherDims.WF S1000000 S17000000x1 S17000000 [] [0] [] [0] [] 1 ![1]
  dot_S1000000x2_S2x4_S1000000x4_1_0_0_1_n_n_wf : DotDims.WF S1000000x2 S2x4 S1000000x4 [1] [0] [0] [1] [] []
  gather_S1000000x4_S17000000x1_S17000000x4_1_0_n_n_0_1_14_wf : GatherDims.WF S1000000x4 S17000000x1 S17000000x4 [1] [0] [] [0] [] 1 ![1, 4]
  scatter_S1000000x4_S17000000x1_S17000000x4_1_0_0_1_wf : ScatterDims.WF S1000000x4 S17000000x1 S17000000x4 [1] [0] [0] 1
  dot_S1000000x4_S4x2_S1000000x2_1_0_0_1_n_n_wf : DotDims.WF S1000000x4 S4x2 S1000000x2 [1] [0] [0] [1] [] []
  gather_S1000000x2_S17000000x1_S17000000x2_1_0_n_n_0_1_12_wf : GatherDims.WF S1000000x2 S17000000x1 S17000000x2 [1] [0] [] [0] [] 1 ![1, 2]
  scatter_S1000000x2_S17000000x1_S17000000x2_1_0_0_1_wf : ScatterDims.WF S1000000x2 S17000000x1 S17000000x2 [1] [0] [0] 1

variable [Facts₀]

def scatter_S1000000_S17000000x1_S17000000_n_0_0_1 : ScatterDims S1000000 S17000000x1 S17000000 where
  updateWindowDims := []
  insertedWindowDims := [0]
  scatterDimsToOperandDims := [0]
  indexVectorDim := 1
  wf := scatter_S1000000_S17000000x1_S17000000_n_0_0_1_wf
def gather_S1000000_S17000000x1_S17000000_n_0_n_n_0_1_1 : GatherDims S1000000 S17000000x1 S17000000 where
  offsetDims := []
  collapsedSliceDims := [0]
  operandBatchingDims := []
  startIndicesBatchingDims := []
  startIndexMap := [0]
  indexVectorDim := 1
  sliceSizes := ![1]
  wf := gather_S1000000_S17000000x1_S17000000_n_0_n_n_0_1_1_wf
def dot_S1000000x2_S2x4_S1000000x4_1_0_0_1_n_n : DotDims S1000000x2 S2x4 S1000000x4 where
  lhsContracting := [1]
  rhsContracting := [0]
  lhsNonContracting := [0]
  rhsNonContracting := [1]
  lhsBatch := []
  rhsBatch := []
  wf := dot_S1000000x2_S2x4_S1000000x4_1_0_0_1_n_n_wf
def gather_S1000000x4_S17000000x1_S17000000x4_1_0_n_n_0_1_14 : GatherDims S1000000x4 S17000000x1 S17000000x4 where
  offsetDims := [1]
  collapsedSliceDims := [0]
  operandBatchingDims := []
  startIndicesBatchingDims := []
  startIndexMap := [0]
  indexVectorDim := 1
  sliceSizes := ![1, 4]
  wf := gather_S1000000x4_S17000000x1_S17000000x4_1_0_n_n_0_1_14_wf
def scatter_S1000000x4_S17000000x1_S17000000x4_1_0_0_1 : ScatterDims S1000000x4 S17000000x1 S17000000x4 where
  updateWindowDims := [1]
  insertedWindowDims := [0]
  scatterDimsToOperandDims := [0]
  indexVectorDim := 1
  wf := scatter_S1000000x4_S17000000x1_S17000000x4_1_0_0_1_wf
def dot_S1000000x4_S4x2_S1000000x2_1_0_0_1_n_n : DotDims S1000000x4 S4x2 S1000000x2 where
  lhsContracting := [1]
  rhsContracting := [0]
  lhsNonContracting := [0]
  rhsNonContracting := [1]
  lhsBatch := []
  rhsBatch := []
  wf := dot_S1000000x4_S4x2_S1000000x2_1_0_0_1_n_n_wf
def gather_S1000000x2_S17000000x1_S17000000x2_1_0_n_n_0_1_12 : GatherDims S1000000x2 S17000000x1 S17000000x2 where
  offsetDims := [1]
  collapsedSliceDims := [0]
  operandBatchingDims := []
  startIndicesBatchingDims := []
  startIndexMap := [0]
  indexVectorDim := 1
  sliceSizes := ![1, 2]
  wf := gather_S1000000x2_S17000000x1_S17000000x2_1_0_n_n_0_1_12_wf
def scatter_S1000000x2_S17000000x1_S17000000x2_1_0_0_1 : ScatterDims S1000000x2 S17000000x1 S17000000x2 where
  updateWindowDims := [1]
  insertedWindowDims := [0]
  scatterDimsToOperandDims := [0]
  indexVectorDim := 1
  wf := scatter_S1000000x2_S17000000x1_S17000000x2_1_0_0_1_wf

class Facts : Prop extends Facts₀ where

variable [Facts]
-- ==== Proof.Stretch.lean ====
import proofs.«148791_j84722524881383_1_alg».proof.Proof.Gen.KernelIdeal.Launch
import proofs.«148791_j84722524881383_1_alg».proof.Proof.RefRead
import Idealize.ShloMosaic.Lib.StableHlo.Run

/-!
The host stretches of the kernel's @main, read against the reference's stages.

Between its three regions the kernel's @main runs the same host operations as the reference does between its two
matrix products: the edge list with self-loops appended (source and destination), the in-degree by a scatter-add of ones,
its inverse square root where positive, the edge weight as the product of the two gathered end-point factors, and,
after each region, the gather of the region's rows at the wrapped source indices, their product with the edge weight and
the scatter-add of the products at the destination indices. Each lemma here takes a stretch from ANY contents `Vw` of
the buffers it reads, given what those contents are as the reference's stages of the arguments, to the reference's
stage of the buffer the stretch writes. They hold for every float family.
-/

set_option maxRecDepth 16384

noncomputable section

namespace Cert.KernelIdeal.Stretch

open Cert.KernelIdeal Cert.KernelIdeal.Gen
open Idealize.ShloMosaic Idealize.ShloMosaic.TcCoe Idealize.SL.Sem Idealize.ShloMosaic.StableHlo

variable {F : FTy → Type} [FloatOps F]
variable (Vw : Valuation τ sig (Elt F))

/-! ## Before the first region: the edge list, the degrees, the edge weights -/

/-- The three stretches before the first region, from the launch contents. -/
abbrev pre : Valuation τ sig (Elt F) := after hostOps0_2 (after hostOps0_1 (after hostOps0 Vw))

/-- The source indices: the first row of the edge list, then every node once. -/
theorem pre_v3 (e : (⟨S2x16000000, .i32⟩ : BufTy).Contents (Elt F)) (he : Vw (Proc.devRef .tc main_arg1) = e) :
    pre Vw (Proc.devRef .tc main_v3) = Cert.ReferenceIdeal.PRead.val_main_v3 (F := F) e := by
  subst he
  show after hostOps0_2 (after hostOps0_1 (after hostOps0 Vw)) (Proc.devRef .tc main_v3) = _
  after_results
  rfl

/-- The destination indices: the second row of the edge list, then every node once. -/
theorem pre_v6 (e : (⟨S2x16000000, .i32⟩ : BufTy).Contents (Elt F)) (he : Vw (Proc.devRef .tc main_arg1) = e) :
    pre Vw (Proc.devRef .tc main_v6) = Cert.ReferenceIdeal.PRead.val_main_v6 (F := F) e := by
  subst he
  show after hostOps0_2 (after hostOps0_1 (after hostOps0 Vw)) (Proc.devRef .tc main_v6) = _
  after_results
  rfl

set_option maxHeartbeats 4000000 in
/-- The edge weights: the product of the inverse square roots of the two end points' degrees. -/
theorem pre_v29 (e : (⟨S2x16000000, .i32⟩ : BufTy).Contents (Elt F)) (he : Vw (Proc.devRef .tc main_arg1) = e) :
    pre Vw (Proc.devRef .tc main_v29) = Cert.ReferenceIdeal.PRead.val_main_v29 (F := F) e := by
  subst he
  show after hostOps0_2 (after hostOps0_1 (after hostOps0 Vw)) (Proc.devRef .tc main_v29) = _
  after_results_simp
  try after_results
  rfl

/-- The stretches before the first region write no argument. -/
theorem pre_arg0 : pre Vw (Proc.devRef .tc main_arg0) = Vw (Proc.devRef .tc main_arg0) := by
  show after hostOps0_2 (after hostOps0_1 (after hostOps0 Vw)) (Proc.devRef .tc main_arg0) = _
  after_results
theorem pre_arg2 : pre Vw (Proc.devRef .tc main_arg2) = Vw (Proc.devRef .tc main_arg2) := by
  show after hostOps0_2 (after hostOps0_1 (after hostOps0 Vw)) (Proc.devRef .tc main_arg2) = _
  after_results
theorem pre_arg3 : pre Vw (Proc.devRef .tc main_arg3) = Vw (Proc.devRef .tc main_arg3) := by
  show after hostOps0_2 (after hostOps0_1 (after hostOps0 Vw)) (Proc.devRef .tc main_arg3) = _
  after_results
theorem pre_arg4 : pre Vw (Proc.devRef .tc main_arg4) = Vw (Proc.devRef .tc main_arg4) := by
  show after hostOps0_2 (after hostOps0_1 (after hostOps0 Vw)) (Proc.devRef .tc main_arg4) = _
  after_results
theorem pre_arg5 : pre Vw (Proc.devRef .tc main_arg5) = Vw (Proc.devRef .tc main_arg5) := by
  show after hostOps0_2 (after hostOps0_1 (after hostOps0 Vw)) (Proc.devRef .tc main_arg5) = _
  after_results

/-! ## Between the first and the second region: the first propagation -/

set_option maxHeartbeats 4000000 in
/-- The first layer's propagated features: the first region's rows gathered at the sources, weighted, summed at the
    destinations. -/
theorem mid1_v43 (x0 : (⟨S1000000x2, .f32⟩ : BufTy).Contents (Elt F)) (e : (⟨S2x16000000, .i32⟩ : BufTy).Contents (Elt F))
    (x2 : (⟨S2x4, .f32⟩ : BufTy).Contents (Elt F))
    (h3 : Vw (Proc.devRef .tc main_v3) = Cert.ReferenceIdeal.PRead.val_main_v3 (F := F) e)
    (h6 : Vw (Proc.devRef .tc main_v6) = Cert.ReferenceIdeal.PRead.val_main_v6 (F := F) e)
    (h29 : Vw (Proc.devRef .tc main_v29) = Cert.ReferenceIdeal.PRead.val_main_v29 (F := F) e)
    (h30 : Vw (Proc.devRef .tc main_v30) = Cert.ReferenceIdeal.PRead.val_main_v30 (F := F) x0 x2) :
    after hostOps1 Vw (Proc.devRef .tc main_v43) = Cert.ReferenceIdeal.PRead.val_main_v43 (F := F) x0 e x2 := by
  after_results_simp
  rw [h3, h6, h29, h30]
  rfl

/-- The first bias as one row. -/
theorem mid1_v44 : after hostOps1 Vw (Proc.devRef .tc main_v44)
    = shapeCast S1x4 (Vw (Proc.devRef .tc main_arg3) : S4.Idx → Elt F .f32) shapeCasts_S4_S1x4 := by
  after_results
  rfl

/-- The stretch writes none of the buffers the later stretches and regions read. -/
theorem mid1_v3 : after hostOps1 Vw (Proc.devRef .tc main_v3) = Vw (Proc.devRef .tc main_v3) := by after_results
theorem mid1_v6 : after hostOps1 Vw (Proc.devRef .tc main_v6) = Vw (Proc.devRef .tc main_v6) := by after_results
theorem mid1_v29 : after hostOps1 Vw (Proc.devRef .tc main_v29) = Vw (Proc.devRef .tc main_v29) := by after_results
theorem mid1_arg4 : after hostOps1 Vw (Proc.devRef .tc main_arg4) = Vw (Proc.devRef .tc main_arg4) := by after_results
theorem mid1_arg5 : after hostOps1 Vw (Proc.devRef .tc main_arg5) = Vw (Proc.devRef .tc main_arg5) := by after_results

/-! ## Between the second and the third region: the second propagation -/

set_option maxHeartbeats 4000000 in
/-- The second layer's propagated features, from the second region's rows `y`: whatever function `G` of the arguments
    the rows are, the stretch's sum is the reference's stage with `G` in the place of its second matrix product. -/
theorem mid2_v58 (x0 : (⟨S1000000x2, .f32⟩ : BufTy).Contents (Elt F)) (e : (⟨S2x16000000, .i32⟩ : BufTy).Contents (Elt F))
    (x2 : (⟨S2x4, .f32⟩ : BufTy).Contents (Elt F)) (x3 : (⟨S4, .f32⟩ : BufTy).Contents (Elt F)) (x4 : (⟨S4x2, .f32⟩ : BufTy).Contents (Elt F))
    (h3 : Vw (Proc.devRef .tc main_v3) = Cert.ReferenceIdeal.PRead.val_main_v3 (F := F) e)
    (h6 : Vw (Proc.devRef .tc main_v6) = Cert.ReferenceIdeal.PRead.val_main_v6 (F := F) e)
    (h29 : Vw (Proc.devRef .tc main_v29) = Cert.ReferenceIdeal.PRead.val_main_v29 (F := F) e)
    (h45 : Vw (Proc.devRef .tc main_v45) = Cert.ReferenceIdeal.PRead.val_main_v48 (F := F) x0 e x2 x3 x4) :
    after hostOps2 Vw (Proc.devRef .tc main_v58) = Cert.ReferenceIdeal.PRead.val_main_v61 (F := F) x0 e x2 x3 x4 := by
  after_results_simp
  rw [h3, h6, h29, h45]
  rfl

/-- The second bias as one row. -/
theorem mid2_v59 : after hostOps2 Vw (Proc.devRef .tc main_v59)
    = shapeCast S1x2 (Vw (Proc.devRef .tc main_arg5) : S2.Idx → Elt F .f32) shapeCasts_S2_S1x2 := by
  after_results
  rfl

end Cert.KernelIdeal.Stretch

end
-- ==== Proof.Region0.lean ====
import proofs.«148791_j84722524881383_1_alg».proof.Proof.Gen.KernelIdeal.Frame
import proofs.«148791_j84722524881383_1_alg».proof.Proof.RefRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Region0

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-! ## The body's product read at an index -/

/-- The left operand's row coordinate is the output's row. -/
theorem lhs_blk_0 (i : S10000x4.Idx) (q : dot_S10000x2_S2x4_S10000x4_1_0_0_1_n_n.contr.Idx) :
    (dot_S10000x2_S2x4_S10000x4_1_0_0_1_n_n.lhsIdx i q 0).val = (i 0).val := by
  unfold DotDims.lhsIdx
  rw [dif_neg (show ¬(0 : Fin S10000x2.rank) ∈ dot_S10000x2_S2x4_S10000x4_1_0_0_1_n_n.lhsBatch by decide), dif_pos (show (0 : Fin S10000x2.rank) ∈ dot_S10000x2_S2x4_S10000x4_1_0_0_1_n_n.lhsNonContracting by decide)]
  rfl
/-- The left operand's column coordinate is the contraction index. -/
theorem lhs_blk_1 (i : S10000x4.Idx) (q : dot_S10000x2_S2x4_S10000x4_1_0_0_1_n_n.contr.Idx) :
    (dot_S10000x2_S2x4_S10000x4_1_0_0_1_n_n.lhsIdx i q 1).val = (q ⟨0, by decide⟩).val :=
  dot_S10000x2_S2x4_S10000x4_1_0_0_1_n_n.lhsIdx_val_of_single rfl i q
/-- The right operand's row coordinate is the contraction index. -/
theorem rhs_blk_0 (i : S10000x4.Idx) (q : dot_S10000x2_S2x4_S10000x4_1_0_0_1_n_n.contr.Idx) :
    (dot_S10000x2_S2x4_S10000x4_1_0_0_1_n_n.rhsIdx i q 0).val = (q ⟨0, by decide⟩).val :=
  dot_S10000x2_S2x4_S10000x4_1_0_0_1_n_n.rhsIdx_val_of_single rfl i q
/-- The right operand's column coordinate is the output's column. -/
theorem rhs_blk_1 (i : S10000x4.Idx) (q : dot_S10000x2_S2x4_S10000x4_1_0_0_1_n_n.contr.Idx) :
    (dot_S10000x2_S2x4_S10000x4_1_0_0_1_n_n.rhsIdx i q 1).val = (i 1).val := by
  unfold DotDims.rhsIdx
  rw [dif_neg (show ¬(1 : Fin S2x4.rank) ∈ dot_S10000x2_S2x4_S10000x4_1_0_0_1_n_n.rhsBatch by decide), dif_pos (show (1 : Fin S2x4.rank) ∈ dot_S10000x2_S2x4_S10000x4_1_0_0_1_n_n.rhsNonContracting by decide)]
  rfl

/-- Row `j 0`, column `k` of a left block. -/
abbrev lblk (j : S10000x4.Idx) (k : Fin 2) : S10000x2.Idx := fun a => match a with
  | ⟨0, _⟩ => ⟨(j 0).val, (j 0).isLt⟩
  | ⟨1, _⟩ => ⟨k.val, k.isLt⟩
/-- Row `k`, column `j 1` of the right operand. -/
abbrev rblk (j : S10000x4.Idx) (k : Fin 2) : S2x4.Idx := fun a => match a with
  | ⟨0, _⟩ => ⟨k.val, k.isLt⟩
  | ⟨1, _⟩ => ⟨(j 1).val, (j 1).isLt⟩

/-- The body's payload at an index: the two-term sum of products along the contracted axis (the narrowing casts are
    the identity on ideal values, and the accumulator is the zero splat). -/
theorem pay_apply (x0 : Vec Ideal S10000x2 .f32) (x2 : Vec Ideal S2x4 .f32) (j : S10000x4.Idx) :
    k0_pay1 (F := Ideal) x0 x2 j = ∑ k : Fin 2, x0 (lblk j k) * x2 (rblk j k) := by
  unfold k0_pay1
  refine (Ideal.matmul_constant_zero_apply dot_S10000x2_S2x4_S10000x4_1_0_0_1_n_n none _ _ j).trans ?_
  rw [← Equiv.sum_comp (ValueIdx.contrEquiv1 dot_S10000x2_S2x4_S10000x4_1_0_0_1_n_n 2 rfl rfl).symm]
  refine Finset.sum_congr rfl fun k _ => ?_
  have hk := ValueIdx.contrEquiv1_symm_val dot_S10000x2_S2x4_S10000x4_1_0_0_1_n_n 2 rfl rfl k
  have el : dot_S10000x2_S2x4_S10000x4_1_0_0_1_n_n.lhsIdx j ((ValueIdx.contrEquiv1 dot_S10000x2_S2x4_S10000x4_1_0_0_1_n_n 2 rfl rfl).symm k) = lblk j k := funext fun a => Fin.ext (by
    match a with
    | ⟨0, _⟩ => exact lhs_blk_0 _ _
    | ⟨1, _⟩ => exact (lhs_blk_1 _ _).trans hk)
  have er : dot_S10000x2_S2x4_S10000x4_1_0_0_1_n_n.rhsIdx j ((ValueIdx.contrEquiv1 dot_S10000x2_S2x4_S10000x4_1_0_0_1_n_n 2 rfl rfl).symm k) = rblk j k := funext fun a => Fin.ext (by
    match a with
    | ⟨0, _⟩ => exact (rhs_blk_0 _ _).trans hk
    | ⟨1, _⟩ => exact rhs_blk_1 _ _)
  rw [el, er]
  rfl

/-! ## The product of the two arrays -/

/-- Row `i 0`, column `k` of the left array. -/
abbrev larr (i : S1000000x4.Idx) (k : Fin 2) : S1000000x2.Idx := fun a => match a with
  | ⟨0, _⟩ => ⟨(i 0).val, (i 0).isLt⟩
  | ⟨1, _⟩ => ⟨k.val, k.isLt⟩
/-- Row `k`, column `i 1` of the right array. -/
abbrev rarr (i : S1000000x4.Idx) (k : Fin 2) : S2x4.Idx := fun a => match a with
  | ⟨0, _⟩ => ⟨k.val, k.isLt⟩
  | ⟨1, _⟩ => ⟨(i 1).val, (i 1).isLt⟩

/-- The matrix product of a [1000000, 2] array and a [2, 4] array, entry by entry. -/
def prodArr (A0 : S1000000x2.Idx → EReal) (A2 : S2x4.Idx → EReal) : S1000000x4.Idx → EReal :=
  fun i => ∑ k : Fin 2, A0 (larr i k) * A2 (rarr i k)

theorem prodArr_apply (A0 : S1000000x2.Idx → EReal) (A2 : S2x4.Idx → EReal) (i : S1000000x4.Idx) :
    prodArr A0 A2 i = ∑ k : Fin 2, A0 (larr i k) * A2 (rarr i k) := rfl

/-- The reference's contraction of the two arrays is that product. -/
theorem prodArr_eq_ref (A0 : S1000000x2.Idx → EReal) (A2 : S2x4.Idx → EReal) :
    prodArr A0 A2 = Cert.ReferenceIdeal.PRead.val_main_v30 (F := Ideal) A0 A2 :=
  funext fun i => (Cert.ReferenceIdeal.PRead.val_main_v30_apply A0 A2 i).symm

/-! ## The blocks as rows of the arrays -/

/-- The printed index maps over the grid: the row blocks of the left operand and of the output move with the point, the
    right operand stays whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point `t` is rows `10000 t … 10000 t + 9999` of its array. -/
theorem lblock_apply (c : Dev nD) (t : Fin cfg0.N) (y : S10000x2.Idx) (z : S1000000x2.Idx)
    (h0 : (z 0).val = t.val * 10000 + (y 0).val) (h1 : (z 1).val = (y 1).val) :
    (iblk0 V c 0 t : Vec Ideal S10000x2 .f32) y = (V c main_arg0 : S1000000x2.Idx → EReal) z := by
  obtain ⟨e00, e01, -⟩ := idx_facts t
  unfold iblk0
  rw [View.read_apply]
  show V c main_arg0 _ = V c main_arg0 _
  congr 1
  funext a
  apply Fin.ext
  match a with
  | ⟨0, _⟩ => show win0_0.index t (0 : Fin 2) * 10000 + 1 * (y 0).val = (z 0).val; rw [e00, h0]; omega
  | ⟨1, _⟩ => show win0_0.index t (1 : Fin 2) * 2 + 1 * (y 1).val = (z 1).val; rw [e01, h1]; omega

/-- The right operand's block at every point is its whole array. -/
theorem rblock_apply (c : Dev nD) (t : Fin cfg0.N) (y : S2x4.Idx) (z : S2x4.Idx)
    (h0 : (z 0).val = (y 0).val) (h1 : (z 1).val = (y 1).val) :
    (iblk0 V c 1 t : Vec Ideal S2x4 .f32) y = (V c main_arg2 : S2x4.Idx → EReal) z := by
  obtain ⟨-, -, e10, e11, -⟩ := idx_facts t
  unfold iblk0
  rw [View.read_apply]
  show V c main_arg2 _ = V c main_arg2 _
  congr 1
  funext a
  apply Fin.ext
  match a with
  | ⟨0, _⟩ => show win0_1.index t (0 : Fin 2) * 2 + 1 * (y 0).val = (z 0).val; rw [e10, h0]; omega
  | ⟨1, _⟩ => show win0_1.index t (1 : Fin 2) * 4 + 1 * (y 1).val = (z 1).val; rw [e11, h1]; omega

/-! ## What a point writes back -/

/-- Point `t` writes back block `t` of the product of the two arrays as the region finds them: the block's entry
    `(r, q)` is the sum over `k` of the left block's `(r, k)` times the right operand's `(k, q)`, and the left block's
    row `r` is the array's row `10000 t + r`, the output block's row `r` the output's row `10000 t + r`. -/
theorem flushed_eq (c : Dev nD) (t : Fin cfg0.N) :
    (dat0 V c).flushed 2 t = ((cfg0.win 2).blk t).view.read (Elt Ideal) (prodArr (V c main_arg0) (V c main_arg2)) := by
  show (cfg0.win 2).cut (grid0.coords t) ((dat0 V c).after 2 t) = _
  rw [after0_2]
  unfold out0_2
  rw [View.canon_unit_zero hz]
  simp only [View.ld_unit_zero (S := S10000x2) hz, View.ld_unit_zero (S := S2x4) hz]
  obtain ⟨-, -, -, -, e20, e21⟩ := idx_facts t
  funext j
  show k0_pay1 (F := Ideal) (iblk0 V c 0 t) (iblk0 V c 1 t) j = prodArr (V c main_arg0) (V c main_arg2) (((cfg0.win 2).blk t).view.emb j)
  refine (pay_apply (iblk0 V c 0 t) (iblk0 V c 1 t) j).trans ?_
  rw [prodArr_apply]
  refine Finset.sum_congr rfl fun k _ => ?_
  have hr : ((((cfg0.win 2).blk t).view.emb j) 0).val = t.val * 10000 + (j 0).val := by
    show win0_2.index t (0 : Fin 2) * 10000 + 1 * (j 0).val = _
    rw [e20]; omega
  have hc : ((((cfg0.win 2).blk t).view.emb j) 1).val = (j 1).val := by
    show win0_2.index t (1 : Fin 2) * 4 + 1 * (j 1).val = _
    rw [e21]; omega
  rw [lblock_apply V c t (lblk j k) (larr (((cfg0.win 2).blk t).view.emb j) k) hr rfl,
    rblock_apply V c t (rblk j k) (rarr (((cfg0.win 2).blk t).view.emb j) k) rfl hc]

/-! ## The output's blocks tile its array -/

/-- An index of the output array is in point `t`'s block iff each coordinate is in the block's range on its axis. -/
theorem mem_blk (t : Fin cfg0.N) (i : S1000000x4.Idx) :
    i ∈ ((cfg0.win 2).blk t).view.set ↔ ∀ a : Fin 2, win0_2.index t a * S10000x4.size a ≤ (i a).val ∧ (i a).val < win0_2.index t a * S10000x4.size a + S10000x4.size a := by
  show i ∈ ((View.whole main_v30).slice (win0_2.rect t)).set ↔ _
  rw [View.set_slice_whole, Rect.mem_set_unit]
  exact Iff.rfl

/-- Row `r` of the output lies in the block of point `r / 10000`, and every point writes its block back. -/
theorem cover (i : S1000000x4.Idx) :
    ∃ t : Fin cfg0.N, (cfg0.win 2).flush t = true ∧ i ∈ ((cfg0.win 2).blk t).view.set := by
  have hi0 : (i 0).val < 1000000 := (i 0).isLt
  have hi1 : (i 1).val < 4 := (i 1).isLt
  have hN : cfg0.N = 100 := rfl
  have ht : (i 0).val / 10000 < cfg0.N := by rw [hN]; omega
  obtain ⟨-, -, -, -, e20, e21⟩ := idx_facts ⟨(i 0).val / 10000, ht⟩
  refine ⟨⟨(i 0).val / 10000, ht⟩, flush0_2 _, ?_⟩
  rw [mem_blk]
  intro a
  match a with
  | ⟨0, _⟩ =>
    show win0_2.index ⟨(i 0).val / 10000, ht⟩ (0 : Fin 2) * 10000 ≤ (i 0).val ∧ (i 0).val < win0_2.index ⟨(i 0).val / 10000, ht⟩ (0 : Fin 2) * 10000 + 10000
    rw [e20]
    show (i 0).val / 10000 * 10000 ≤ (i 0).val ∧ (i 0).val < (i 0).val / 10000 * 10000 + 10000
    omega
  | ⟨1, _⟩ =>
    show win0_2.index ⟨(i 0).val / 10000, ht⟩ (1 : Fin 2) * 4 ≤ (i 1).val ∧ (i 1).val < win0_2.index ⟨(i 0).val / 10000, ht⟩ (1 : Fin 2) * 4 + 4
    rw [e21]
    omega

/-! ## The array after the region -/

/-- Region 0 leaves in its output array the product of its two operand arrays as the region finds them. -/
theorem arr (c : Dev nD) :
    (dat0 V c).arrAt 2 cfg0.N
      = Cert.ReferenceIdeal.PRead.val_main_v30 (F := Ideal) (V c main_arg0) (V c main_arg2) := by
  rw [← prodArr_eq_ref]
  exact (dat0 V c).arrAt_eq_of_cover 2 (prodArr (V c main_arg0) (V c main_arg2)) (fun t _ => flushed_eq V c t) cover

end Cert.KernelIdeal.Region0

end
-- ==== Proof.Region1.lean ====
import proofs.«148791_j84722524881383_1_alg».proof.Proof.Gen.KernelIdeal.Frame
import proofs.«148791_j84722524881383_1_alg».proof.Proof.RefRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Region1

open Cert.KernelIdeal Cert.KernelIdeal.Gen

variable (V : (c : Dev nD) → (b : Ref sig .tc) → Buf (Elt Ideal) ((c : Thread nD τ).loc b))

open Idealize.ShloMosaic.ValueIdx

theorem hz : (![0, 0] : Fin 2 → Nat) = fun _ => 0 := funext fun a => by fin_cases a <;> rfl

/-! ## The body's product read at an index -/

theorem lhs_pay_0 (i : S10000x2.Idx) (q : dot_S10000x4_S4x2_S10000x2_1_0_0_1_n_n.contr.Idx) :
    (dot_S10000x4_S4x2_S10000x2_1_0_0_1_n_n.lhsIdx i q 0).val = (i 0).val := by
  unfold DotDims.lhsIdx
  rw [dif_neg (show ¬(0 : Fin S10000x4.rank) ∈ dot_S10000x4_S4x2_S10000x2_1_0_0_1_n_n.lhsBatch by decide), dif_pos (show (0 : Fin S10000x4.rank) ∈ dot_S10000x4_S4x2_S10000x2_1_0_0_1_n_n.lhsNonContracting by decide)]
  rfl
theorem lhs_pay_1 (i : S10000x2.Idx) (q : dot_S10000x4_S4x2_S10000x2_1_0_0_1_n_n.contr.Idx) :
    (dot_S10000x4_S4x2_S10000x2_1_0_0_1_n_n.lhsIdx i q 1).val = (q ⟨0, by decide⟩).val :=
  dot_S10000x4_S4x2_S10000x2_1_0_0_1_n_n.lhsIdx_val_of_single rfl i q
theorem rhs_pay_0 (i : S10000x2.Idx) (q : dot_S10000x4_S4x2_S10000x2_1_0_0_1_n_n.contr.Idx) :
    (dot_S10000x4_S4x2_S10000x2_1_0_0_1_n_n.rhsIdx i q 0).val = (q ⟨0, by decide⟩).val :=
  dot_S10000x4_S4x2_S10000x2_1_0_0_1_n_n.rhsIdx_val_of_single rfl i q
theorem rhs_pay_1 (i : S10000x2.Idx) (q : dot_S10000x4_S4x2_S10000x2_1_0_0_1_n_n.contr.Idx) :
    (dot_S10000x4_S4x2_S10000x2_1_0_0_1_n_n.rhsIdx i q 1).val = (i 1).val := by
  unfold DotDims.rhsIdx
  rw [dif_neg (show ¬(1 : Fin S4x2.rank) ∈ dot_S10000x4_S4x2_S10000x2_1_0_0_1_n_n.rhsBatch by decide), dif_pos (show (1 : Fin S4x2.rank) ∈ dot_S10000x4_S4x2_S10000x2_1_0_0_1_n_n.rhsNonContracting by decide)]
  rfl

/-- The body's matrix product into the zero splat, read at row `p` and column `q`: the sum over the four
    contracted columns. -/
theorem matmul_apply (l : FVec Ideal S10000x4 .bf16) (r : FVec Ideal S4x2 .bf16) (p : Fin 10000) (q : Fin 2) :
    matmul dot_S10000x4_S4x2_S10000x2_1_0_0_1_n_n none l r (constant S10000x2 .f32 0x00000000#32) (ix2 p q)
      = ∑ k : Fin 4, l (ix2 p k) * r (ix2 k q) := by
  simp only [matmul]
  rw [Ideal.matmul_constant_zero_apply, ← Equiv.sum_comp (ValueIdx.contrEquiv1 dot_S10000x4_S4x2_S10000x2_1_0_0_1_n_n 4 rfl rfl).symm]
  refine Finset.sum_congr rfl fun k _ => ?_
  have hk := ValueIdx.contrEquiv1_symm_val dot_S10000x4_S4x2_S10000x2_1_0_0_1_n_n 4 rfl rfl k
  have el : dot_S10000x4_S4x2_S10000x2_1_0_0_1_n_n.lhsIdx (ix2 p q) ((ValueIdx.contrEquiv1 dot_S10000x4_S4x2_S10000x2_1_0_0_1_n_n 4 rfl rfl).symm k) = ix2 p k := funext fun a => Fin.ext (by
    match a with
    | ⟨0, _⟩ => exact lhs_pay_0 _ _
    | ⟨1, _⟩ => exact (lhs_pay_1 _ _).trans hk)
  have er : dot_S10000x4_S4x2_S10000x2_1_0_0_1_n_n.rhsIdx (ix2 p q) ((ValueIdx.contrEquiv1 dot_S10000x4_S4x2_S10000x2_1_0_0_1_n_n 4 rfl rfl).symm k) = ix2 k q := funext fun a => Fin.ext (by
    match a with
    | ⟨0, _⟩ => exact (rhs_pay_0 _ _).trans hk
    | ⟨1, _⟩ => exact rhs_pay_1 _ _)
  rw [el, er]

/-- The three arrays the region reads, at their literal types: the operand, the bias row, the weight. -/
abbrev opArr (c : Dev nD) : Vec Ideal S1000000x4 .f32 := V c main_v43
abbrev biasArr (c : Dev nD) : Vec Ideal S1x4 .f32 := V c main_v44
abbrev wArr (c : Dev nD) : Vec Ideal S4x2 .f32 := V c main_arg4

/-- The one row of the bias block, broadcast down the rows, read at row `p` and column `k`. -/
theorem bias_bcast_apply (x1 : Vec Ideal S1x4 .f32) (p : Fin 10000) (k : Fin 4) :
    broadcastTo S10000x4 x1 broadcasts_S1x4_S10000x4 (ix2 p k) = x1 (ix2 (0 : Fin 1) k) :=
  broadcastTo_apply x1 broadcasts_S1x4_S10000x4 (ix2 p k) (ix2 (0 : Fin 1) k) (fun a => match a with
    | ⟨0, _⟩ => by show 0 = if (1 : Nat) = 1 then 0 else _; rw [if_pos rfl]
    | ⟨1, _⟩ => by show k.val = if (4 : Nat) = 1 then 0 else k.val; rw [if_neg (by decide)])

/-- The body's payload at row `p` and column `q`: the rectified sum of the operand block's row and the bias row,
    times the weight's column, summed over the four contracted columns. -/
theorem pay_apply (x0 : Vec Ideal S10000x4 .f32) (x1 : Vec Ideal S1x4 .f32) (x2 : Vec Ideal S4x2 .f32) (p : Fin 10000) (q : Fin 2) :
    k1_pay1 x0 x1 x2 (ix2 p q)
      = ∑ k : Fin 4, max (x0 (ix2 p k) + x1 (ix2 (0 : Fin 1) k)) (Ideal.ofBits .f32 0x00000000#32) * x2 (ix2 k q) := by
  unfold k1_pay1
  refine (matmul_apply _ _ p q).trans ?_
  refine Finset.sum_congr rfl fun k _ => ?_
  show max (shapeCast S10000x4 x0 shapeCasts_S10000x4_S10000x4 (ix2 p k)
      + broadcastTo S10000x4 (shapeCast S1x4 x1 shapeCasts_S1x4_S1x4) broadcasts_S1x4_S10000x4 (ix2 p k))
      (Ideal.ofBits .f32 0x00000000#32) * x2 (ix2 k q) = _
  rw [shapeCast_self, shapeCast_self, bias_bcast_apply]

/-! ## The windows' blocks read off their arrays -/

/-- The printed index maps over the grid: the operand's and the result's blocks step down the rows with the point,
    the bias row and the weight are block (0, 0) at every point. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The operand's block at point `t`, row `p`, column `k` is the operand array at row `10000 t + p`. -/
theorem operand_blk_apply (c : Dev nD) (t : Fin cfg1.N) (p : Fin 10000) (k : Fin 4) (r : Fin 1000000)
    (hr : r.val = t.val * 10000 + p.val) :
    (iblk1 V c 0 t : Vec Ideal S10000x4 .f32) (ix2 p k) = opArr V c (ix2 r k) := by
  obtain ⟨e0, e1, -⟩ := idx_facts t
  unfold iblk1
  rw [View.read_apply]
  show V c main_v43 _ = V c main_v43 _
  congr 1
  funext a
  apply Fin.ext
  match a with
  | ⟨0, _⟩ => show win1_0.index t (0 : Fin 2) * 10000 + 1 * p.val = r.val; rw [e0, hr]; omega
  | ⟨1, _⟩ => show win1_0.index t (1 : Fin 2) * 4 + 1 * k.val = k.val; rw [e1]; omega

/-- The weight's block at every point is the weight. -/
theorem weight_blk_apply (c : Dev nD) (t : Fin cfg1.N) (k : Fin 4) (q : Fin 2) :
    (iblk1 V c 2 t : Vec Ideal S4x2 .f32) (ix2 k q) = wArr V c (ix2 k q) := by
  obtain ⟨-, -, -, -, e0, e1, -⟩ := idx_facts t
  unfold iblk1
  rw [View.read_apply]
  show V c main_arg4 _ = V c main_arg4 _
  congr 1
  funext a
  apply Fin.ext
  match a with
  | ⟨0, _⟩ => show win1_2.index t (0 : Fin 2) * 4 + 1 * k.val = k.val; rw [e0]; omega
  | ⟨1, _⟩ => show win1_2.index t (1 : Fin 2) * 2 + 1 * q.val = q.val; rw [e1]; omega

/-- The bias row's block at every point is the bias row. -/
theorem bias_blk_apply (c : Dev nD) (t : Fin cfg1.N) (k : Fin 4) :
    (iblk1 V c 1 t : Vec Ideal S1x4 .f32) (ix2 (0 : Fin 1) k) = biasArr V c (ix2 (0 : Fin 1) k) := by
  obtain ⟨-, -, e0, e1, -⟩ := idx_facts t
  unfold iblk1
  rw [View.read_apply]
  show V c main_v44 _ = V c main_v44 _
  congr 1
  funext a
  apply Fin.ext
  match a with
  | ⟨0, _⟩ => show win1_1.index t (0 : Fin 2) * 1 + 1 * 0 = 0; rw [e0]
  | ⟨1, _⟩ => show win1_1.index t (1 : Fin 2) * 4 + 1 * k.val = k.val; rw [e1]; omega

/-- The vector `b` recast to one row, read at column `k`, is `b` at `k`. -/
theorem bias_row_apply (b : S4.Idx → Elt Ideal .f32) (k : Fin 4) :
    shapeCast S1x4 b shapeCasts_S4_S1x4 (ix2 (0 : Fin 1) k) = b (ix1 k) := by
  refine shapeCast_apply b shapeCasts_S4_S1x4 (ix2 (0 : Fin 1) k) (ix1 k) ?_
  rw [Shape.rowMajor_val_one, Shape.rowMajor_val_two]
  show k.val = 0 * 4 + k.val
  omega

/-! ## What a point writes back -/

/-- What point `t` writes back, read at row `p` and column `q` of its block: the rectified sum of the operand array's
    row `10000 t + p` and `b`, times the weight's column `q`, summed over the four contracted columns. -/
theorem flushed_apply (c : Dev nD) (b : S4.Idx → Elt Ideal .f32)
    (hb : V c main_v44 = shapeCast S1x4 b shapeCasts_S4_S1x4) (t : Fin cfg1.N) (p : Fin 10000) (q : Fin 2)
    (r : Fin 1000000) (hr : r.val = t.val * 10000 + p.val) :
    ((dat1 V c).flushed 3 t : Vec Ideal S10000x2 .f32) (ix2 p q)
      = ∑ k : Fin 4, max (opArr V c (ix2 r k) + b (ix1 k)) (Ideal.ofBits .f32 0x00000000#32) * wArr V c (ix2 k q) := by
  show (cfg1.win 3).cut (grid1.coords t) ((dat1 V c).after 3 t) (ix2 p q) = _
  rw [after1_3]
  unfold out1_3
  rw [View.canon_unit_zero hz]
  simp only [View.ld_unit_zero (S := S10000x4) hz, View.ld_unit_zero (S := S1x4) hz, View.ld_unit_zero (S := S4x2) hz]
  refine (pay_apply (iblk1 V c 0 t) (iblk1 V c 1 t) (iblk1 V c 2 t) p q).trans ?_
  refine Finset.sum_congr rfl fun k _ => ?_
  rw [operand_blk_apply V c t p k r hr, weight_blk_apply V c t k q, bias_blk_apply V c t k]
  show max (opArr V c (ix2 r k) + V c main_v44 (ix2 (0 : Fin 1) k)) _ * _ = _
  rw [hb, bias_row_apply]

/-! ## The points' blocks cover the result array -/

/-- An index of the result array is in point `t`'s block iff each coordinate is in the block's range on its axis. -/
theorem mem_blk (t : Fin cfg1.N) (i : S1000000x2.Idx) :
    i ∈ ((cfg1.win 3).blk t).view.set ↔ ∀ a : Fin 2, win1_3.index t a * S10000x2.size a ≤ (i a).val ∧ (i a).val < win1_3.index t a * S10000x2.size a + S10000x2.size a := by
  show i ∈ ((View.whole main_v45).slice (win1_3.rect t)).set ↔ _
  rw [View.set_slice_whole, Rect.mem_set_unit]
  exact Iff.rfl

/-- Row `r` of the result array lies in the block of the point `r / 10000`. -/
theorem cover (i : S1000000x2.Idx) :
    ∃ t : Fin cfg1.N, (cfg1.win 3).flush t = true ∧ i ∈ ((cfg1.win 3).blk t).view.set := by
  have hi0 : (i 0).val < 1000000 := (i 0).isLt
  have hi1 : (i 1).val < 2 := (i 1).isLt
  have hN : cfg1.N = 100 := by decide
  have ht : (i 0).val / 10000 < cfg1.N := by rw [hN]; omega
  obtain ⟨-, -, -, -, -, -, e0, e1⟩ := idx_facts ⟨(i 0).val / 10000, ht⟩
  refine ⟨⟨(i 0).val / 10000, ht⟩, flush1_3 _, ?_⟩
  rw [mem_blk]
  intro a
  match a with
  | ⟨0, _⟩ =>
    show win1_3.index ⟨(i 0).val / 10000, ht⟩ (0 : Fin 2) * 10000 ≤ (i 0).val
      ∧ (i 0).val < win1_3.index ⟨(i 0).val / 10000, ht⟩ (0 : Fin 2) * 10000 + 10000
    rw [e0]
    show (i 0).val / 10000 * 10000 ≤ (i 0).val ∧ (i 0).val < (i 0).val / 10000 * 10000 + 10000
    omega
  | ⟨1, _⟩ =>
    show win1_3.index ⟨(i 0).val / 10000, ht⟩ (1 : Fin 2) * 2 ≤ (i 1).val
      ∧ (i 1).val < win1_3.index ⟨(i 0).val / 10000, ht⟩ (1 : Fin 2) * 2 + 2
    rw [e1]
    omega

/-! ## The target read at an index -/

/-- The host's product of an operand with a weight, read at row `r` and column `q`: the sum over the four contracted
    columns. -/
theorem dot_apply (y : FVec Ideal S1000000x4 .f32) (w : FVec Ideal S4x2 .f32) (r : Fin 1000000) (q : Fin 2) :
    Host.dotGeneral Cert.ReferenceIdeal.dot_S1000000x4_S4x2_S1000000x2_1_0_0_1_n_n none y w (ix2 r q)
      = ∑ k : Fin 4, y (ix2 r k) * w (ix2 k q) := by
  simp only [Host.dotGeneral]
  rw [Ideal.dotGeneral_apply, ← Equiv.sum_comp (ValueIdx.contrEquiv1 Cert.ReferenceIdeal.dot_S1000000x4_S4x2_S1000000x2_1_0_0_1_n_n 4 rfl rfl).symm]
  refine Finset.sum_congr rfl fun k _ => ?_
  have hk := ValueIdx.contrEquiv1_symm_val Cert.ReferenceIdeal.dot_S1000000x4_S4x2_S1000000x2_1_0_0_1_n_n 4 rfl rfl k
  have el : Cert.ReferenceIdeal.dot_S1000000x4_S4x2_S1000000x2_1_0_0_1_n_n.lhsIdx (ix2 r q) ((ValueIdx.contrEquiv1 Cert.ReferenceIdeal.dot_S1000000x4_S4x2_S1000000x2_1_0_0_1_n_n 4 rfl rfl).symm k) = ix2 r k := funext fun a => Fin.ext (by
    match a with
    | ⟨0, _⟩ => exact Cert.ReferenceIdeal.PRead.lhs_main_v48_0 _ _
    | ⟨1, _⟩ => exact (Cert.ReferenceIdeal.PRead.lhs_main_v48_1 _ _).trans hk)
  have er : Cert.ReferenceIdeal.dot_S1000000x4_S4x2_S1000000x2_1_0_0_1_n_n.rhsIdx (ix2 r q) ((ValueIdx.contrEquiv1 Cert.ReferenceIdeal.dot_S1000000x4_S4x2_S1000000x2_1_0_0_1_n_n 4 rfl rfl).symm k) = ix2 k q := funext fun a => Fin.ext (by
    match a with
    | ⟨0, _⟩ => exact (Cert.ReferenceIdeal.PRead.rhs_main_v48_0 _ _).trans hk
    | ⟨1, _⟩ => exact Cert.ReferenceIdeal.PRead.rhs_main_v48_1 _ _)
  rw [el, er]

/-- The bias row broadcast down the million rows, read at row `r` and column `k`, is `b` at `k`. -/
theorem ref_bias_apply (b : S4.Idx → Elt Ideal .f32) (r : Fin 1000000) (k : Fin 4) :
    Cert.ReferenceIdeal.PRead.val_main_v45 (F := Ideal) b (ix2 r k) = b (ix1 k) := by
  rw [Cert.ReferenceIdeal.PRead.val_main_v45_apply, Cert.ReferenceIdeal.PRead.val_main_v44_apply]
  refine congrArg b (funext fun a => ?_)
  match a with
  | ⟨0, _⟩ => rfl

/-- The rectifier's zero splat reads the zero word everywhere. -/
theorem ref_zero_apply (r : Fin 1000000) (k : Fin 4) :
    Cert.ReferenceIdeal.PRead.val_main_call1_v0 (F := Ideal) (ix2 r k) = Ideal.ofBits .f32 0x00000000#32 := by
  rw [Cert.ReferenceIdeal.PRead.val_main_call1_v0_apply]
  rfl

/-- The region's result array as one function of the arrays it reads. -/
abbrev G (c : Dev nD) (b : S4.Idx → Elt Ideal .f32) : Vec Ideal S1000000x2 .f32 :=
  Host.dotGeneral (F := Ideal) (φ₁ := .f32) (φ₂ := .f32) Cert.ReferenceIdeal.dot_S1000000x4_S4x2_S1000000x2_1_0_0_1_n_n none
    (maximumf (addf (V c main_v43) (Cert.ReferenceIdeal.PRead.val_main_v45 (F := Ideal) b))
      (Cert.ReferenceIdeal.PRead.val_main_call1_v0 (F := Ideal)))
    (V c main_arg4)

/-- It reads, at row `r` and column `q`, the rectified sum of the operand array's row `r` and `b`, times the weight's
    column `q`, summed over the four contracted columns. -/
theorem G_apply (c : Dev nD) (b : S4.Idx → Elt Ideal .f32) (r : Fin 1000000) (q : Fin 2) :
    G V c b (ix2 r q)
      = ∑ k : Fin 4, max (opArr V c (ix2 r k) + b (ix1 k)) (Ideal.ofBits .f32 0x00000000#32) * wArr V c (ix2 k q) := by
  refine (dot_apply _ _ r q).trans ?_
  refine Finset.sum_congr rfl fun k _ => ?_
  show max (opArr V c (ix2 r k) + Cert.ReferenceIdeal.PRead.val_main_v45 (F := Ideal) b (ix2 r k))
      (Cert.ReferenceIdeal.PRead.val_main_call1_v0 (F := Ideal) (ix2 r k)) * wArr V c (ix2 k q) = _
  rw [ref_bias_apply, ref_zero_apply]

/-- WHAT POINT `t` WRITES BACK is block `t` of that function. -/
theorem flushed_eq (c : Dev nD) (b : S4.Idx → Elt Ideal .f32)
    (hb : V c main_v44 = shapeCast S1x4 b shapeCasts_S4_S1x4) (t : Fin cfg1.N) :
    (dat1 V c).flushed 3 t = ((cfg1.win 3).blk t).view.read (Elt Ideal) (G V c b) := by
  funext j
  obtain ⟨p, q, rfl⟩ : ∃ (p : Fin 10000) (q : Fin 2), j = ix2 p q := ⟨j 0, j 1, eq_ix2 j⟩
  have hp : p.val < 10000 := p.isLt
  have hN : cfg1.N = 100 := by decide
  have ht : t.val < 100 := hN ▸ t.isLt
  obtain ⟨-, -, -, -, -, -, e0, e1⟩ := idx_facts t
  have hemb : ((cfg1.win 3).blk t).view.emb (ix2 p q) = ix2 (⟨t.val * 10000 + p.val, by omega⟩ : Fin 1000000) q := by
    funext a
    apply Fin.ext
    match a with
    | ⟨0, _⟩ => show win1_3.index t (0 : Fin 2) * 10000 + 1 * p.val = t.val * 10000 + p.val; rw [e0]; omega
    | ⟨1, _⟩ => show win1_3.index t (1 : Fin 2) * 2 + 1 * q.val = q.val; rw [e1]; omega
  refine (flushed_apply V c b hb t p q ⟨t.val * 10000 + p.val, by omega⟩ rfl).trans ?_
  rw [View.read_apply, hemb, G_apply]
  rfl

/-- Region 1 leaves in its output array the product with the second weight of the rectified sum of its first operand
    array and the bias row, the bias row being the vector `b` recast to one row. -/
theorem arr (c : Dev nD) (b : S4.Idx → Elt Ideal .f32)
    (hb : V c main_v44 = shapeCast S1x4 b shapeCasts_S4_S1x4) :
    (dat1 V c).arrAt 3 cfg1.N
      = Host.dotGeneral (F := Ideal) (φ₁ := .f32) (φ₂ := .f32) Cert.ReferenceIdeal.dot_S1000000x4_S4x2_S1000000x2_1_0_0_1_n_n none
          (maximumf (addf (V c main_v43) (Cert.ReferenceIdeal.PRead.val_main_v45 (F := Ideal) b))
            (Cert.ReferenceIdeal.PRead.val_main_call1_v0 (F := Ideal)))
          (V c main_arg4) := by
  exact (dat1 V c).arrAt_eq_of_cover 3 (G V c b) (fun t _ => flushed_eq V c b hb t) cover

end Cert.KernelIdeal.Region1

end
-- ==== Proof.Region2.lean ====
import proofs.«148791_j84722524881383_1_alg».proof.Proof.Gen.KernelIdeal.Frame
import proofs.«148791_j84722524881383_1_alg».proof.Proof.RefRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Region2

open Cert.KernelIdeal Cert.KernelIdeal.Gen

variable (V : (c : Dev nD) → (b : Ref sig .tc) → Buf (Elt Ideal) ((c : Thread nD τ).loc b))

/-- The zero offsets of a whole-buffer access, spelt as the constant function. -/
theorem hz : (![0, 0] : Fin 2 → Nat) = fun _ => 0 :=
  funext fun a => match a with | ⟨0, _⟩ => rfl | ⟨1, _⟩ => rfl

/-- The index maps over the grid: the two row-blocked windows sit at block (t, 0), the bias row's window at block (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The first operand array as the region finds it. -/
abbrev xarr (c : Dev nD) : FVec Ideal S1000000x2 .f32 := V c main_v58

/-- The body's payload: the block plus the bias row broadcast down the block's rows (the two recasts are to the same shape). -/
theorem pay_eq (x0 : Vec Ideal S10000x2 .f32) (x1 : Vec Ideal S1x2 .f32) :
    k2_pay1 x0 x1 = addf x0 (broadcastTo S10000x2 x1 broadcasts_S1x2_S10000x2) := by
  unfold k2_pay1
  simp only [shapeCast_self]

/-- The bias row broadcast down the rows, read at row `p`, column `q`, is the row's entry of column `q`. -/
theorem bcast_apply (x1 : Vec Ideal S1x2 .f32) (p : Fin 10000) (q : Fin 2) :
    broadcastTo S10000x2 x1 broadcasts_S1x2_S10000x2 (ValueIdx.ix2 p q) = x1 (ValueIdx.ix2 (⟨0, Nat.one_pos⟩ : Fin 1) q) :=
  broadcastTo_apply x1 broadcasts_S1x2_S10000x2 (ValueIdx.ix2 p q) (ValueIdx.ix2 (⟨0, Nat.one_pos⟩ : Fin 1) q) (fun a => match a with
    | ⟨0, _⟩ => by show 0 = if (1 : Nat) = 1 then 0 else p.val; rw [if_pos rfl]
    | ⟨1, _⟩ => by show q.val = if (2 : Nat) = 1 then 0 else q.val; rw [if_neg (by decide)])

/-- The body's payload read at row `p`, column `q`: the block's entry plus the bias row's entry of that column. -/
theorem pay_apply (x0 : Vec Ideal S10000x2 .f32) (x1 : Vec Ideal S1x2 .f32) (p : Fin 10000) (q : Fin 2) :
    k2_pay1 x0 x1 (ValueIdx.ix2 p q) = x0 (ValueIdx.ix2 p q) + x1 (ValueIdx.ix2 (⟨0, Nat.one_pos⟩ : Fin 1) q) :=
  (congrFun (pay_eq x0 x1) (ValueIdx.ix2 p q)).trans (congrArg (x0 (ValueIdx.ix2 p q) + ·) (bcast_apply x1 p q))

/-- The first operand's block at point `t`, read at row `p`, column `q`, is the array's entry at row `10000 t + p`, column `q`. -/
theorem iblk0_apply (c : Dev nD) (t : Fin cfg2.N) (p : Fin 10000) (q : Fin 2) (i : S1000000x2.Idx)
    (hi0 : (i 0).val = t.val * 10000 + p.val) (hi1 : (i 1).val = q.val) :
    (iblk2 V c 0 t : Vec Ideal S10000x2 .f32) (ValueIdx.ix2 p q) = xarr V c i := by
  obtain ⟨e0, e1, -⟩ := idx_facts t
  unfold iblk2
  rw [View.read_apply]
  show V c main_v58 _ = V c main_v58 _
  congr 1
  funext a
  apply Fin.ext
  match a with
  | ⟨0, _⟩ => show win2_0.index t 0 * 10000 + 1 * p.val = (i 0).val; rw [e0, hi0]; omega
  | ⟨1, _⟩ => show win2_0.index t 1 * 2 + 1 * q.val = (i 1).val; rw [e1, hi1]; omega

/-- The bias row's block at any point, read at column `q`, is the row array's entry of column `q`. -/
theorem iblk1_apply (c : Dev nD) (t : Fin cfg2.N) (q : Fin 2) :
    (iblk2 V c 1 t : Vec Ideal S1x2 .f32) (ValueIdx.ix2 (⟨0, Nat.one_pos⟩ : Fin 1) q)
      = (V c main_v59 : S1x2.Idx → Elt Ideal .f32) (ValueIdx.ix2 (⟨0, Nat.one_pos⟩ : Fin 1) q) := by
  obtain ⟨-, -, e2, e3, -⟩ := idx_facts t
  unfold iblk2
  rw [View.read_apply]
  show V c main_v59 _ = V c main_v59 _
  congr 1
  funext a
  apply Fin.ext
  match a with
  | ⟨0, _⟩ => show win2_1.index t 0 * 1 + 1 * 0 = 0; rw [e2]
  | ⟨1, _⟩ => show win2_1.index t 1 * 2 + 1 * q.val = q.val; rw [e3]; omega

/-- The vector `b` recast to one row, read at column `q`, is `b` at `q`. -/
theorem row_apply (b : S2.Idx → Elt Ideal .f32) (q : Fin 2) :
    shapeCast S1x2 b shapeCasts_S2_S1x2 (ValueIdx.ix2 (⟨0, Nat.one_pos⟩ : Fin 1) q) = b (ValueIdx.ix1 q) := by
  refine (shapeCast_addUnit_apply (n := 1) ![2] b shapeCasts_S2_S1x2 (ValueIdx.ix2 (⟨0, Nat.one_pos⟩ : Fin 1) q)).trans ?_
  refine congrArg b (funext fun a => ?_)
  match a with
  | ⟨0, _⟩ => rfl

/-- The reference's bias array (the vector made one row, the row repeated down a million rows) read at an index of column `q` is `b` at `q`. -/
theorem ref_apply (b : S2.Idx → Elt Ideal .f32) (q : Fin 2) (i : S1000000x2.Idx) (hi1 : (i 1).val = q.val) :
    Cert.ReferenceIdeal.PRead.val_main_v63 (F := Ideal) b i = b (ValueIdx.ix1 q) := by
  rw [Cert.ReferenceIdeal.PRead.val_main_v63_apply, Cert.ReferenceIdeal.PRead.val_main_v62_apply]
  refine congrArg b (funext fun a => ?_)
  match a with
  | ⟨0, _⟩ => exact Fin.ext hi1

/-- The array the region is to leave: the first operand array plus the reference's bias array. -/
abbrev target (c : Dev nD) (b : S2.Idx → Elt Ideal .f32) : FVec Ideal S1000000x2 .f32 :=
  addf (xarr V c) (Cert.ReferenceIdeal.PRead.val_main_v63 (F := Ideal) b)

/-- One entry of what point `t` computes: at row `p`, column `q` of the block the payload is the sum, at the array index `i` of
    row `10000 t + p` and column `q`, of the first operand array and the reference's bias array. -/
theorem point_eq (c : Dev nD) (b : S2.Idx → Elt Ideal .f32)
    (hb : V c main_v59 = shapeCast S1x2 b shapeCasts_S2_S1x2) (t : Fin cfg2.N) (p : Fin 10000) (q : Fin 2)
    (i : S1000000x2.Idx) (hi0 : (i 0).val = t.val * 10000 + p.val) (hi1 : (i 1).val = q.val) :
    k2_pay1 (iblk2 V c 0 t : Vec Ideal S10000x2 .f32) (iblk2 V c 1 t : Vec Ideal S1x2 .f32) (ValueIdx.ix2 p q)
      = xarr V c i + Cert.ReferenceIdeal.PRead.val_main_v63 (F := Ideal) b i := by
  refine (pay_apply (iblk2 V c 0 t) (iblk2 V c 1 t) p q).trans ?_
  have hrow : (iblk2 V c 1 t : Vec Ideal S1x2 .f32) (ValueIdx.ix2 (⟨0, Nat.one_pos⟩ : Fin 1) q)
      = Cert.ReferenceIdeal.PRead.val_main_v63 (F := Ideal) b i :=
    ((iblk1_apply V c t q).trans ((congrFun hb (ValueIdx.ix2 (⟨0, Nat.one_pos⟩ : Fin 1) q)).trans (row_apply b q))).trans
      (ref_apply b q i hi1).symm
  rw [iblk0_apply V c t p q i hi0 hi1, hrow]

/-- What point `t` writes back is block `t` of the sum of the first operand array and the reference's bias array. -/
theorem flushed_eq (c : Dev nD) (b : S2.Idx → Elt Ideal .f32)
    (hb : V c main_v59 = shapeCast S1x2 b shapeCasts_S2_S1x2) (t : Fin cfg2.N) :
    (dat2 V c).flushed 2 t
      = ((cfg2.win 2).blk t).view.read (Elt Ideal) (target V c b) := by
  show (cfg2.win 2).cut (grid2.coords t) ((dat2 V c).after 2 t) = _
  rw [after2_2]
  unfold out2_2
  rw [View.canon_unit_zero hz]
  simp only [View.ld_unit_zero (S := S10000x2) hz, View.ld_unit_zero (S := S1x2) hz]
  obtain ⟨-, -, -, -, e4, e5⟩ := idx_facts t
  funext j
  obtain ⟨p, q, rfl⟩ : ∃ (p : Fin 10000) (q : Fin 2), j = ValueIdx.ix2 p q := ⟨j 0, j 1, ValueIdx.eq_ix2 j⟩
  refine point_eq V c b hb t p q (((cfg2.win 2).blk t).view.emb (ValueIdx.ix2 p q)) ?_ ?_
  · show win2_2.index t 0 * 10000 + 1 * p.val = t.val * 10000 + p.val
    rw [e4]; omega
  · show win2_2.index t 1 * 2 + 1 * q.val = q.val
    rw [e5]; omega

/-- An index of the output array is in point `t`'s block iff each coordinate is in the block's range on its axis. -/
theorem mem_blk (t : Fin cfg2.N) (i : S1000000x2.Idx) :
    i ∈ ((cfg2.win 2).blk t).view.set ↔ ∀ a : Fin 2, win2_2.index t a * S10000x2.size a ≤ (i a).val
      ∧ (i a).val < win2_2.index t a * S10000x2.size a + S10000x2.size a := by
  show i ∈ ((View.whole main_v60).slice (win2_2.rect t)).set ↔ _
  rw [View.set_slice_whole, Rect.mem_set_unit]
  exact Iff.rfl

/-- Every index of the output array lies in the block of the point its row falls in: row `r` in the block of point `r / 10000`. -/
theorem cover (i : S1000000x2.Idx) :
    ∃ t : Fin cfg2.N, (cfg2.win 2).flush t = true ∧ i ∈ ((cfg2.win 2).blk t).view.set := by
  have h0 : (i 0).val < 1000000 := (i 0).isLt
  have h1 : (i 1).val < 2 := (i 1).isLt
  have hN : cfg2.N = 100 := by decide
  obtain ⟨t, ht⟩ : ∃ t : Fin cfg2.N, t.val = (i 0).val / 10000 :=
    ⟨⟨(i 0).val / 10000, by rw [hN]; omega⟩, rfl⟩
  obtain ⟨-, -, -, -, e4, e5⟩ := idx_facts t
  refine ⟨t, flush2_2 t, ?_⟩
  rw [mem_blk]
  intro a
  match a with
  | ⟨0, _⟩ =>
    show win2_2.index t 0 * 10000 ≤ (i 0).val ∧ (i 0).val < win2_2.index t 0 * 10000 + 10000
    rw [e4]; omega
  | ⟨1, _⟩ =>
    show win2_2.index t 1 * 2 ≤ (i 1).val ∧ (i 1).val < win2_2.index t 1 * 2 + 2
    rw [e5]; omega

/-- Region 2 leaves in its output array its first operand array plus the bias row on every row, the bias row being the
    vector `b` recast to one row. -/
theorem arr (c : Dev nD) (b : S2.Idx → Elt Ideal .f32)
    (hb : V c main_v59 = shapeCast S1x2 b shapeCasts_S2_S1x2) :
    (dat2 V c).arrAt 2 cfg2.N
      = (addf (V c main_v58) (Cert.ReferenceIdeal.PRead.val_main_v63 (F := Ideal) b) : FVec Ideal S1000000x2 .f32) := by
  exact (dat2 V c).arrAt_eq_of_cover 2 (target V c b) (fun t _ => flushed_eq V c b hb t) cover

end Cert.KernelIdeal.Region2

end
-- ==== Proof.Result.lean ====
import proofs.«148791_j84722524881383_1_alg».proof.Proof.KRun
import proofs.«148791_j84722524881383_1_alg».proof.Proof.Stretch
import proofs.«148791_j84722524881383_1_alg».proof.Proof.Region0
import proofs.«148791_j84722524881383_1_alg».proof.Proof.Region1
import proofs.«148791_j84722524881383_1_alg».proof.Proof.Region2

/-!
The kernel's result array as the reference's function of the arguments.

The buffer contents at the boundaries of @main's segments are followed from the launch to the return: before the first
region the edge list, the degrees and the edge weights are the reference's stages of the edge argument; the first region's
output is the first matrix product; the stretch after it propagates it along the edges; the second region's output is
the second matrix product of the rectified, biased sum; the stretch after it propagates that; the third region adds the
second bias. Every buffer a later segment reads is carried unchanged across the segments that do not write it.
-/

set_option maxRecDepth 16384

noncomputable section

namespace Cert.KernelIdeal.Result

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The six arguments as launched. -/
abbrev a0 : (⟨S1000000x2, .f32⟩ : BufTy).Contents (Elt Ideal) := m ((c : Thread nD τ).loc main_arg0)
abbrev a1 : (⟨S2x16000000, .i32⟩ : BufTy).Contents (Elt Ideal) := m ((c : Thread nD τ).loc main_arg1)
abbrev a2 : (⟨S2x4, .f32⟩ : BufTy).Contents (Elt Ideal) := m ((c : Thread nD τ).loc main_arg2)
abbrev a3 : (⟨S4, .f32⟩ : BufTy).Contents (Elt Ideal) := m ((c : Thread nD τ).loc main_arg3)
abbrev a4 : (⟨S4x2, .f32⟩ : BufTy).Contents (Elt Ideal) := m ((c : Thread nD τ).loc main_arg4)
abbrev a5 : (⟨S2, .f32⟩ : BufTy).Contents (Elt Ideal) := m ((c : Thread nD τ).loc main_arg5)

/-! ## At the first region's entry -/

theorem e3_v3 : W3 m ρ c (Proc.devRef .tc main_v3) = Cert.ReferenceIdeal.PRead.val_main_v3 (F := Ideal) (a1 m c) :=
  Stretch.pre_v3 (W0 m ρ c) (a1 m c) rfl
theorem e3_v6 : W3 m ρ c (Proc.devRef .tc main_v6) = Cert.ReferenceIdeal.PRead.val_main_v6 (F := Ideal) (a1 m c) :=
  Stretch.pre_v6 (W0 m ρ c) (a1 m c) rfl
theorem e3_v29 : W3 m ρ c (Proc.devRef .tc main_v29) = Cert.ReferenceIdeal.PRead.val_main_v29 (F := Ideal) (a1 m c) :=
  Stretch.pre_v29 (W0 m ρ c) (a1 m c) rfl
theorem e3_a0 : W3 m ρ c (Proc.devRef .tc main_arg0) = a0 m c := Stretch.pre_arg0 (W0 m ρ c)
theorem e3_a2 : W3 m ρ c (Proc.devRef .tc main_arg2) = a2 m c := Stretch.pre_arg2 (W0 m ρ c)
theorem e3_a3 : W3 m ρ c (Proc.devRef .tc main_arg3) = a3 m c := Stretch.pre_arg3 (W0 m ρ c)
theorem e3_a4 : W3 m ρ c (Proc.devRef .tc main_arg4) = a4 m c := Stretch.pre_arg4 (W0 m ρ c)
theorem e3_a5 : W3 m ρ c (Proc.devRef .tc main_arg5) = a5 m c := Stretch.pre_arg5 (W0 m ρ c)

/-! ## At the first region's exit -/

theorem e4_v3 : W4 m ρ c (Proc.devRef .tc main_v3) = Cert.ReferenceIdeal.PRead.val_main_v3 (F := Ideal) (a1 m c) :=
  (W4_of_ne m ρ c main_v3 (by decide)).trans (e3_v3 m ρ c)
theorem e4_v6 : W4 m ρ c (Proc.devRef .tc main_v6) = Cert.ReferenceIdeal.PRead.val_main_v6 (F := Ideal) (a1 m c) :=
  (W4_of_ne m ρ c main_v6 (by decide)).trans (e3_v6 m ρ c)
theorem e4_v29 : W4 m ρ c (Proc.devRef .tc main_v29) = Cert.ReferenceIdeal.PRead.val_main_v29 (F := Ideal) (a1 m c) :=
  (W4_of_ne m ρ c main_v29 (by decide)).trans (e3_v29 m ρ c)
theorem e4_a3 : W4 m ρ c (Proc.devRef .tc main_arg3) = a3 m c := (W4_of_ne m ρ c main_arg3 (by decide)).trans (e3_a3 m ρ c)
theorem e4_a4 : W4 m ρ c (Proc.devRef .tc main_arg4) = a4 m c := (W4_of_ne m ρ c main_arg4 (by decide)).trans (e3_a4 m ρ c)
theorem e4_a5 : W4 m ρ c (Proc.devRef .tc main_arg5) = a5 m c := (W4_of_ne m ρ c main_arg5 (by decide)).trans (e3_a5 m ρ c)
/-- The first region's output: the first matrix product. -/
theorem e4_v30 : W4 m ρ c (Proc.devRef .tc main_v30) = Cert.ReferenceIdeal.PRead.val_main_v30 (F := Ideal) (a0 m c) (a2 m c) := by
  refine (W4_arr m ρ c 2).trans ((Region0.arr (V3 m ρ) c).trans ?_)
  rw [show V3 m ρ c main_arg0 = a0 m c from e3_a0 m ρ c, show V3 m ρ c main_arg2 = a2 m c from e3_a2 m ρ c]

/-! ## At the second region's entry -/

theorem e5_v43 : W5 m ρ c (Proc.devRef .tc main_v43) = Cert.ReferenceIdeal.PRead.val_main_v43 (F := Ideal) (a0 m c) (a1 m c) (a2 m c) :=
  Stretch.mid1_v43 (W4 m ρ c) (a0 m c) (a1 m c) (a2 m c) (e4_v3 m ρ c) (e4_v6 m ρ c) (e4_v29 m ρ c) (e4_v30 m ρ c)
theorem e5_v44 : W5 m ρ c (Proc.devRef .tc main_v44) = shapeCast S1x4 (a3 m c) shapeCasts_S4_S1x4 := by
  refine (Stretch.mid1_v44 (W4 m ρ c)).trans ?_
  rw [e4_a3 m ρ c]
theorem e5_v3 : W5 m ρ c (Proc.devRef .tc main_v3) = Cert.ReferenceIdeal.PRead.val_main_v3 (F := Ideal) (a1 m c) :=
  (Stretch.mid1_v3 (W4 m ρ c)).trans (e4_v3 m ρ c)
theorem e5_v6 : W5 m ρ c (Proc.devRef .tc main_v6) = Cert.ReferenceIdeal.PRead.val_main_v6 (F := Ideal) (a1 m c) :=
  (Stretch.mid1_v6 (W4 m ρ c)).trans (e4_v6 m ρ c)
theorem e5_v29 : W5 m ρ c (Proc.devRef .tc main_v29) = Cert.ReferenceIdeal.PRead.val_main_v29 (F := Ideal) (a1 m c) :=
  (Stretch.mid1_v29 (W4 m ρ c)).trans (e4_v29 m ρ c)
theorem e5_a4 : W5 m ρ c (Proc.devRef .tc main_arg4) = a4 m c := (Stretch.mid1_arg4 (W4 m ρ c)).trans (e4_a4 m ρ c)
theorem e5_a5 : W5 m ρ c (Proc.devRef .tc main_arg5) = a5 m c := (Stretch.mid1_arg5 (W4 m ρ c)).trans (e4_a5 m ρ c)

/-! ## At the second region's exit -/

theorem e6_v3 : W6 m ρ c (Proc.devRef .tc main_v3) = Cert.ReferenceIdeal.PRead.val_main_v3 (F := Ideal) (a1 m c) :=
  (W6_of_ne m ρ c main_v3 (by decide)).trans (e5_v3 m ρ c)
theorem e6_v6 : W6 m ρ c (Proc.devRef .tc main_v6) = Cert.ReferenceIdeal.PRead.val_main_v6 (F := Ideal) (a1 m c) :=
  (W6_of_ne m ρ c main_v6 (by decide)).trans (e5_v6 m ρ c)
theorem e6_v29 : W6 m ρ c (Proc.devRef .tc main_v29) = Cert.ReferenceIdeal.PRead.val_main_v29 (F := Ideal) (a1 m c) :=
  (W6_of_ne m ρ c main_v29 (by decide)).trans (e5_v29 m ρ c)
theorem e6_a5 : W6 m ρ c (Proc.devRef .tc main_arg5) = a5 m c := (W6_of_ne m ρ c main_arg5 (by decide)).trans (e5_a5 m ρ c)
/-- The second region's output: the second matrix product, of the rectified sum of the propagated features and the
    first bias. -/
theorem e6_v45 : W6 m ρ c (Proc.devRef .tc main_v45)
    = Cert.ReferenceIdeal.PRead.val_main_v48 (F := Ideal) (a0 m c) (a1 m c) (a2 m c) (a3 m c) (a4 m c) := by
  refine (W6_arr m ρ c 3).trans ((Region1.arr (V5 m ρ) c (a3 m c) (e5_v44 m ρ c)).trans ?_)
  rw [show V5 m ρ c main_v43 = _ from e5_v43 m ρ c, show V5 m ρ c main_arg4 = a4 m c from e5_a4 m ρ c]
  rfl

/-! ## At the third region's entry and exit -/

theorem e7_v58 : W7 m ρ c (Proc.devRef .tc main_v58)
    = Cert.ReferenceIdeal.PRead.val_main_v61 (F := Ideal) (a0 m c) (a1 m c) (a2 m c) (a3 m c) (a4 m c) :=
  Stretch.mid2_v58 (W6 m ρ c) (a0 m c) (a1 m c) (a2 m c) (a3 m c) (a4 m c) (e6_v3 m ρ c) (e6_v6 m ρ c) (e6_v29 m ρ c) (e6_v45 m ρ c)
theorem e7_v59 : W7 m ρ c (Proc.devRef .tc main_v59) = shapeCast S1x2 (a5 m c) shapeCasts_S2_S1x2 := by
  refine (Stretch.mid2_v59 (W6 m ρ c)).trans ?_
  rw [e6_a5 m ρ c]

/-- THE RESULT ARRAY at the return is the reference's function of the six arguments. -/
theorem e8_v60 : W8 m ρ c (Proc.devRef .tc main_v60)
    = Cert.ReferenceIdeal.PRead.val_main_v64 (F := Ideal) (a0 m c) (a1 m c) (a2 m c) (a3 m c) (a4 m c) (a5 m c) := by
  refine (W8_arr m ρ c 2).trans ((Region2.arr (V7 m ρ) c (a5 m c) (e7_v59 m ρ c)).trans ?_)
  rw [show V7 m ρ c main_v58 = _ from e7_v58 m ρ c]
  rfl

/-- The kernel's run, read: the result array at the reference's function of the arguments, the arguments unchanged. -/
theorem run : θ_run defs (onTc (τ := τ) (main (F := Ideal))) ⟨m, fun _ => 0, ρ⟩ (fun r => ∀ c : Dev nD,
      r.2.mem ((c.tc : Thread nD τ).loc main_v60)
        = Cert.ReferenceIdeal.PRead.val_main_v64 (F := Ideal) (a0 m c) (a1 m c) (a2 m c) (a3 m c) (a4 m c) (a5 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (e8_v60 m ρ c), (h c).2⟩) (Cert.KernelIdeal.Whole.run (F := Ideal) m ρ)

end Cert.KernelIdeal.Result

end
-- ==== Proof.lean ====
/-
  A two-layer graph convolution over 1,000,000 nodes and 17,000,000 edges (the 16,000,000 given ones and a self-loop per
  node), against its plain reference. Both programs build the same edge weights (the product of the inverse square roots
  of the two end points' in-degrees, zero where a degree is not positive) and propagate along the edges by the same
  gather, product and scatter-add. They differ in three places only. The kernel computes the first matrix product
  `x · W1` in a region of its own, block of 10,000 rows by block, through a matmul into a zero accumulator of operands
  narrowed to sixteen bits, where the reference has one `dot_general`; it fuses the first bias, the rectification and the
  second matrix product `max (h + b1, 0) · W2` into a second region, the bias as one row broadcast inside the block, where
  the reference broadcasts the bias over the whole array, rectifies and multiplies on the host; and it adds the second
  bias in a third region. Read over the extended reals a change of float format is the identity, a matmul into zero and a
  `dot_general` are the same sum of products over the contracted index, and a row broadcast inside a block is the whole
  array's broadcast read at that block: so each region's output array is the reference's stage of the same operands, and
  the host stretches between the regions, which are the reference's own operations, carry the equality to the result.
  No algebraic law beyond the sums' re-indexing is needed, so the inputs' finiteness is never used.
-/
import proofs.«148791_j84722524881383_1_alg».proof.Defs
import proofs.«148791_j84722524881383_1_alg».proof.Proof.Gen.Kernel
import proofs.«148791_j84722524881383_1_alg».proof.Proof.Gen.Kernel.Frame
import proofs.«148791_j84722524881383_1_alg».proof.Proof.Gen.KernelIdeal
import proofs.«148791_j84722524881383_1_alg».proof.Proof.Gen.KernelIdeal.Frame
import proofs.«148791_j84722524881383_1_alg».proof.Proof.Gen.ReferenceIdeal
import proofs.«148791_j84722524881383_1_alg».proof.Proof.Gen.Pre_finite_inputs
import proofs.«148791_j84722524881383_1_alg».proof.Proof.RefRun
import proofs.«148791_j84722524881383_1_alg».proof.Proof.RefRead
import proofs.«148791_j84722524881383_1_alg».proof.Proof.Result
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.PValue.run (F := Ideal) m ρ)

/-- Over the extended reals the kernel's result array and the reference's are one function of arguments that agree:
    the reference's last stage. -/
theorem algebraic : Cert.algebraic_KernelIdeal_ReferenceIdeal := by
  intro m ρ m' ρ' _ hagree
  refine ⟨fun c => Cert.ReferenceIdeal.PRead.val_main_v64 (F := Ideal) (Cert.KernelIdeal.Result.a0 m c) (Cert.KernelIdeal.Result.a1 m c)
      (Cert.KernelIdeal.Result.a2 m c) (Cert.KernelIdeal.Result.a3 m c) (Cert.KernelIdeal.Result.a4 m c) (Cert.KernelIdeal.Result.a5 m c),
    Cert.KernelIdeal.Result.run m ρ, ?_⟩
  refine (θ_run Cert.ReferenceIdeal.defs _ _).mono (fun _ h c => ⟨(h c).1.trans ?_, (h c).2⟩)
    (Cert.ReferenceIdeal.PValue.run (F := Ideal) m' ρ')
  rw [Cert.ReferenceIdeal.PRead.val_main_v64_eq]
  obtain ⟨e0, e1, e2, e3, e4, e5⟩ := hagree c
  rw [e0, e1, e2, e3, e4, e5]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
